-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x3200000 : Shape := ⟨2, ![2, 3200000]⟩
abbrev S12x6 : Shape := ⟨2, ![12, 6]⟩
abbrev S12 : Shape := ⟨1, ![12]⟩
abbrev S24x12 : Shape := ⟨2, ![24, 12]⟩
abbrev S24 : Shape := ⟨1, ![24]⟩
abbrev S6x24 : Shape := ⟨2, ![6, 24]⟩
abbrev S6 : Shape := ⟨1, ![6]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S12x6 : S_.BroadcastsInDim S12x6 (![] : Fin 0 → Fin S12x6.rank)
  reducesTo_S12x6_S_d0_1 : S12x6.ReducesTo [0, 1] S_
  bcast_S_S12 : S_.BroadcastsInDim S12 (![] : Fin 0 → Fin S12.rank)
  reducesTo_S12_S_d0 : S12.ReducesTo [0] S_
  bcast_S_S24x12 : S_.BroadcastsInDim S24x12 (![] : Fin 0 → Fin S24x12.rank)
  reducesTo_S24x12_S_d0_1 : S24x12.ReducesTo [0, 1] S_
  bcast_S_S24 : S_.BroadcastsInDim S24 (![] : Fin 0 → Fin S24.rank)
  reducesTo_S24_S_d0 : S24.ReducesTo [0] S_
  bcast_S_S6x24 : S_.BroadcastsInDim S6x24 (![] : Fin 0 → Fin S6x24.rank)
  reducesTo_S6x24_S_d0_1 : S6x24.ReducesTo [0, 1] S_
  bcast_S_S6 : S_.BroadcastsInDim S6 (![] : Fin 0 → Fin S6.rank)
  reducesTo_S6_S_d0 : S6.ReducesTo [0] S_

variable [Facts]

def fn_part2 {F : FTy → Type} [FloatOps F] (main_arg8 : FVec F S6x24 .f32) (main_arg9 : FVec F S6 .f32) (main_arg10 : FVec F S6x24 .f32) (main_v33 : IVec S_ 1) : IVec S_ 1 :=
  let main_v34 : FVec F S6x24 .f32 := Host.absf main_arg8
  let main_cst_12 : FVec F S_ .f32 := constant S_ .f32 0x7F800000#32
  let main_v35 : FVec F S6x24 .f32 := broadcastInDim S6x24 ![] bcast_S_S6x24 main_cst_12
  let main_v36 : IVec S6x24 1 := cmpf .olt main_v34 main_v35
  let main_c_13 : IVec S_ 1 := constantI S_ 1 1#1
  let main_v37 : IVec S_ 1 := (fun x v => Host.reduce IntOp.andi x v reducesTo_S6x24_S_d0_1 h_S_) main_v36 main_c_13
  let main_v38 : IVec S_ 1 := andi main_v33 main_v37
  let main_v39 : FVec F S6 .f32 := Host.absf main_arg9
  let main_cst_14 : FVec F S_ .f32 := constant S_ .f32 0x7F800000#32
  let main_v40 : FVec F S6 .f32 := broadcastInDim S6 ![] bcast_S_S6 main_cst_14
  let main_v41 : IVec S6 1 := cmpf .olt main_v39 main_v40
  let main_c_15 : IVec S_ 1 := constantI S_ 1 1#1
  let main_v42 : IVec S_ 1 := (fun x v => Host.reduce IntOp.andi x v reducesTo_S6_S_d0 h_S_) main_v41 main_c_15
  let main_v43 : IVec S_ 1 := andi main_v38 main_v42
  let main_v44 : FVec F S6x24 .f32 := Host.absf main_arg10
  let main_cst_16 : FVec F S_ .f32 := constant S_ .f32 0x7F800000#32
  let main_v45 : FVec F S6x24 .f32 := broadcastInDim S6x24 ![] bcast_S_S6x24 main_cst_16
  let main_v46 : IVec S6x24 1 := cmpf .olt main_v44 main_v45
  let main_c_17 : IVec S_ 1 := constantI S_ 1 1#1
  let main_v47 : IVec S_ 1 := (fun x v => Host.reduce IntOp.andi x v reducesTo_S6x24_S_d0_1 h_S_) main_v46 main_c_17
  let main_v48 : IVec S_ 1 := andi main_v43 main_v47
  main_v48

def fn_part1 {F : FTy → Type} [FloatOps F] (main_arg5 : FVec F S24x12 .f32) (main_arg6 : FVec F S24 .f32) (main_arg7 : FVec F S24x12 .f32) (main_arg8 : FVec F S6x24 .f32) (main_arg9 : FVec F S6 .f32) (main_arg10 : FVec F S6x24 .f32) (main_v13 : IVec S_ 1) (main_v16 : IVec S12x6 1) : IVec S_ 1 :=
  let main_c_5 : IVec S_ 1 := constantI S_ 1 1#1
  let main_v17 : IVec S_ 1 := (fun x v => Host.reduce IntOp.andi x v reducesTo_S12x6_S_d0_1 h_S_) main_v16 main_c_5
  let main_v18 : IVec S_ 1 := andi main_v13 main_v17
  let main_v19 : FVec F S24x12 .f32 := Host.absf main_arg5
  let main_cst_6 : FVec F S_ .f32 := constant S_ .f32 0x7F800000#32
  let main_v20 : FVec F S24x12 .f32 := broadcastInDim S24x12 ![] bcast_S_S24x12 main_cst_6
  let main_v21 : IVec S24x12 1 := cmpf .olt main_v19 main_v20
  let main_c_7 : IVec S_ 1 := constantI S_ 1 1#1
  let main_v22 : IVec S_ 1 := (fun x v => Host.reduce IntOp.andi x v reducesTo_S24x12_S_d0_1 h_S_) main_v21 main_c_7
  let main_v23 : IVec S_ 1 := andi main_v18 main_v22
  let main_v24 : FVec F S24 .f32 := Host.absf main_arg6
  let main_cst_8 : FVec F S_ .f32 := constant S_ .f32 0x7F800000#32
  let main_v25 : FVec F S24 .f32 := broadcastInDim S24 ![] bcast_S_S24 main_cst_8
  let main_v26 : IVec S24 1 := cmpf .olt main_v24 main_v25
  let main_c_9 : IVec S_ 1 := constantI S_ 1 1#1
  let main_v27 : IVec S_ 1 := (fun x v => Host.reduce IntOp.andi x v reducesTo_S24_S_d0 h_S_) main_v26 main_c_9
  let main_v28 : IVec S_ 1 := andi main_v23 main_v27
  let main_v29 : FVec F S24x12 .f32 := Host.absf main_arg7
  let main_cst_10 : FVec F S_ .f32 := constant S_ .f32 0x7F800000#32
  let main_v30 : FVec F S24x12 .f32 := broadcastInDim S24x12 ![] bcast_S_S24x12 main_cst_10
  let main_v31 : IVec S24x12 1 := cmpf .olt main_v29 main_v30
  let main_c_11 : IVec S_ 1 := constantI S_ 1 1#1
  let main_v32 : IVec S_ 1 := (fun x v => Host.reduce IntOp.andi x v reducesTo_S24x12_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x6 .f32) (main_arg1 : IVec S2x3200000 32) (main_arg2 : FVec F S12x6 .f32) (main_arg3 : FVec F S12 .f32) (main_arg4 : FVec F S12x6 .f32) (main_arg5 : FVec F S24x12 .f32) (main_arg6 : FVec F S24 .f32) (main_arg7 : FVec F S24x12 .f32) (main_arg8 : FVec F S6x24 .f32) (main_arg9 : FVec F S6 .f32) (main_arg10 : FVec F S6x24 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S12x6 .f32 := Host.absf main_arg2
  let main_cst_0 : FVec F S_ .f32 := constant S_ .f32 0x7F800000#32
  let main_v5 : FVec F S12x6 .f32 := broadcastInDim S12x6 ![] bcast_S_S12x6 main_cst_0
  let main_v6 : IVec S12x6 1 := cmpf .olt main_v4 main_v5
  let main_c_1 : IVec S_ 1 := constantI S_ 1 1#1
  let main_v7 : IVec S_ 1 := (fun x v => Host.reduce IntOp.andi x v reducesTo_S12x6_S_d0_1 h_S_) main_v6 main_c_1
  let main_v8 : IVec S_ 1 := andi main_v3 main_v7
  let main_v9 : FVec F S12 .f32 := Host.absf main_arg3
  let main_cst_2 : FVec F S_ .f32 := constant S_ .f32 0x7F800000#32
  let main_v10 : FVec F S12 .f32 := broadcastInDim S12 ![] bcast_S_S12 main_cst_2
  let main_v11 : IVec S12 1 := cmpf .olt main_v9 main_v10
  let main_c_3 : IVec S_ 1 := constantI S_ 1 1#1
  let main_v12 : IVec S_ 1 := (fun x v => Host.reduce IntOp.andi x v reducesTo_S12_S_d0 h_S_) main_v11 main_c_3
  let main_v13 : IVec S_ 1 := andi main_v8 main_v12
  let main_v14 : FVec F S12x6 .f32 := Host.absf main_arg4
  let main_cst_4 : FVec F S_ .f32 := constant S_ .f32 0x7F800000#32
  let main_v15 : FVec F S12x6 .f32 := broadcastInDim S12x6 ![] bcast_S_S12x6 main_cst_4
  let main_v16 : IVec S12x6 1 := cmpf .olt main_v14 main_v15
  fn_part1 (F := F) main_arg5 main_arg6 main_arg7 main_arg8 main_arg9 main_arg10 main_v13 main_v16
-- ==== Kernel.lean ====
abbrev S100000x6 : Shape := ⟨2, ![100000, 6]⟩
abbrev S2x3200000 : Shape := ⟨2, ![2, 3200000]⟩
abbrev S12x6 : Shape := ⟨2, ![12, 6]⟩
abbrev S12 : Shape := ⟨1, ![12]⟩
abbrev S24x12 : Shape := ⟨2, ![24, 12]⟩
abbrev S24 : Shape := ⟨1, ![24]⟩
abbrev S6x24 : Shape := ⟨2, ![6, 24]⟩
abbrev S6 : Shape := ⟨1, ![6]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x6 : Shape := ⟨2, ![3200000, 6]⟩
abbrev S1x12 : Shape := ⟨2, ![1, 12]⟩
abbrev S6x12 : Shape := ⟨2, ![6, 12]⟩
abbrev S100000x12 : Shape := ⟨2, ![100000, 12]⟩
abbrev S2000x6 : Shape := ⟨2, ![2000, 6]⟩
abbrev S2000x1 : Shape := ⟨2, ![2000, 1]⟩
abbrev S2000x12 : Shape := ⟨2, ![2000, 12]⟩
abbrev S3200000x12 : Shape := ⟨2, ![3200000, 12]⟩
abbrev S1x24 : Shape := ⟨2, ![1, 24]⟩
abbrev S12x24 : Shape := ⟨2, ![12, 24]⟩
abbrev S100000x24 : Shape := ⟨2, ![100000, 24]⟩
abbrev S2000x24 : Shape := ⟨2, ![2000, 24]⟩
abbrev S3200000x24 : Shape := ⟨2, ![3200000, 24]⟩
abbrev S1x6 : Shape := ⟨2, ![1, 6]⟩
abbrev S24x6 : Shape := ⟨2, ![24, 6]⟩

abbrev nBuf : Space → Nat
  | .hbm => 73
  | .vmem => 33
  | .smem => 0
  | _ => 0

abbrev bufTy : (tb : Table) → Fin (tcTables nBuf tb) → BufTy
  | .hbm, ⟨0, _⟩ => ⟨S100000x6, .f32⟩
  | .hbm, ⟨1, _⟩ => ⟨S2x3200000, .i32⟩
  | .hbm, ⟨2, _⟩ => ⟨S12x6, .f32⟩
  | .hbm, ⟨3, _⟩ => ⟨S12, .f32⟩
  | .hbm, ⟨4, _⟩ => ⟨S12x6, .f32⟩
  | .hbm, ⟨5, _⟩ => ⟨S24x12, .f32⟩
  | .hbm, ⟨6, _⟩ => ⟨S24, .f32⟩
  | .hbm, ⟨7, _⟩ => ⟨S24x12, .f32⟩
  | .hbm, ⟨8, _⟩ => ⟨S6x24, .f32⟩
  | .hbm, ⟨9, _⟩ => ⟨S6, .f32⟩
  | .hbm, ⟨10, _⟩ => ⟨S6x24, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .f32⟩
  | .hbm, ⟨16, _⟩ => ⟨S3200000, .f32⟩
  | .hbm, ⟨17, _⟩ => ⟨S_, .f32⟩
  | .hbm, ⟨18, _⟩ => ⟨S100000, .f32⟩
  | .hbm, ⟨19, _⟩ => ⟨S3200000x1, .i32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000x6, .f32⟩
  | .hbm, ⟨31, _⟩ => ⟨S_, .f32⟩
  | .hbm, ⟨32, _⟩ => ⟨S100000x6, .f32⟩
  | .hbm, ⟨33, _⟩ => ⟨S3200000x1, .i32⟩
  | .hbm, ⟨34, _⟩ => ⟨S100000x6, .f32⟩
  | .hbm, ⟨35, _⟩ => ⟨S1x12, .f32⟩
  | .hbm, ⟨36, _⟩ => ⟨S6x12, .f32⟩
  | .hbm, ⟨37, _⟩ => ⟨S6x12, .f32⟩
  | .hbm, ⟨38, _⟩ => ⟨S100000x12, .f32⟩
  | .hbm, ⟨39, _⟩ => ⟨S_, .i32⟩
  | .hbm, ⟨40, _⟩ => ⟨S3200000, .i32⟩
  | .hbm, ⟨41, _⟩ => ⟨S3200000, .i1⟩
  | .hbm, ⟨42, _⟩ => ⟨S_, .i32⟩
  | .hbm, ⟨43, _⟩ => ⟨S3200000, .i32⟩
  | .hbm, ⟨44, _⟩ => ⟨S3200000, .i32⟩
  | .hbm, ⟨45, _⟩ => ⟨S3200000, .i32⟩
  | .hbm, ⟨46, _⟩ => ⟨S3200000x1, .i32⟩
  | .hbm, ⟨47, _⟩ => ⟨S3200000x12, .f32⟩
  | .hbm, ⟨48, _⟩ => ⟨S_, .f32⟩
  | .hbm, ⟨49, _⟩ => ⟨S100000x12, .f32⟩
  | .hbm, ⟨50, _⟩ => ⟨S3200000x1, .i32⟩
  | .hbm, ⟨51, _⟩ => ⟨S100000x12, .f32⟩
  | .hbm, ⟨52, _⟩ => ⟨S1x24, .f32⟩
  | .hbm, ⟨53, _⟩ => ⟨S12x24, .f32⟩
  | .hbm, ⟨54, _⟩ => ⟨S12x24, .f32⟩
  | .hbm, ⟨55, _⟩ => ⟨S100000x24, .f32⟩
  | .hbm, ⟨56, _⟩ => ⟨S_, .i32⟩
  | .hbm, ⟨57, _⟩ => ⟨S3200000, .i32⟩
  | .hbm, ⟨58, _⟩ => ⟨S3200000, .i1⟩
  | .hbm, ⟨59, _⟩ => ⟨S_, .i32⟩
  | .hbm, ⟨60, _⟩ => ⟨S3200000, .i32⟩
  | .hbm, ⟨61, _⟩ => ⟨S3200000, .i32⟩
  | .hbm, ⟨62, _⟩ => ⟨S3200000, .i32⟩
  | .hbm, ⟨63, _⟩ => ⟨S3200000x1, .i32⟩
  | .hbm, ⟨64, _⟩ => ⟨S3200000x24, .f32⟩
  | .hbm, ⟨65, _⟩ => ⟨S_, .f32⟩
  | .hbm, ⟨66, _⟩ => ⟨S100000x24, .f32⟩
  | .hbm, ⟨67, _⟩ => ⟨S3200000x1, .i32⟩
  | .hbm, ⟨68, _⟩ => ⟨S100000x24, .f32⟩
  | .hbm, ⟨69, _⟩ => ⟨S1x6, .f32⟩
  | .hbm, ⟨70, _⟩ => ⟨S24x6, .f32⟩
  | .hbm, ⟨71, _⟩ => ⟨S24x6, .f32⟩
  | .hbm, ⟨72, _⟩ => ⟨S100000x6, .f32⟩
  | .local _ .vmem, ⟨0, _⟩ => ⟨S2000x6, .f32⟩
  | .local _ .vmem, ⟨1, _⟩ => ⟨S2000x6, .f32⟩
  | .local _ .vmem, ⟨2, _⟩ => ⟨S2000x1, .f32⟩
  | .local _ .vmem, ⟨3, _⟩ => ⟨S2000x1, .f32⟩
  | .local _ .vmem, ⟨4, _⟩ => ⟨S2000x6, .f32⟩
  | .local _ .vmem, ⟨5, _⟩ => ⟨S2000x6, .f32⟩
  | .local _ .vmem, ⟨6, _⟩ => ⟨S6x12, .f32⟩
  | .local _ .vmem, ⟨7, _⟩ => ⟨S1x12, .f32⟩
  | .local _ .vmem, ⟨8, _⟩ => ⟨S6x12, .f32⟩
  | .local _ .vmem, ⟨9, _⟩ => ⟨S2000x12, .f32⟩
  | .local _ .vmem, ⟨10, _⟩ => ⟨S2000x12, .f32⟩
  | .local _ .vmem, ⟨11, _⟩ => ⟨S2000x12, .f32⟩
  | .local _ .vmem, ⟨12, _⟩ => ⟨S2000x12, .f32⟩
  | .local _ .vmem, ⟨13, _⟩ => ⟨S2000x1, .f32⟩
  | .local _ .vmem, ⟨14, _⟩ => ⟨S2000x1, .f32⟩
  | .local _ .vmem, ⟨15, _⟩ => ⟨S2000x12, .f32⟩
  | .local _ .vmem, ⟨16, _⟩ => ⟨S2000x12, .f32⟩
  | .local _ .vmem, ⟨17, _⟩ => ⟨S12x24, .f32⟩
  | .local _ .vmem, ⟨18, _⟩ => ⟨S1x24, .f32⟩
  | .local _ .vmem, ⟨19, _⟩ => ⟨S12x24, .f32⟩
  | .local _ .vmem, ⟨20, _⟩ => ⟨S2000x24, .f32⟩
  | .local _ .vmem, ⟨21, _⟩ => ⟨S2000x24, .f32⟩
  | .local _ .vmem, ⟨22, _⟩ => ⟨S2000x24, .f32⟩
  | .local _ .vmem, ⟨23, _⟩ => ⟨S2000x24, .f32⟩
  | .local _ .vmem, ⟨24, _⟩ => ⟨S2000x1, .f32⟩
  | .local _ .vmem, ⟨25, _⟩ => ⟨S2000x1, .f32⟩
  | .local _ .vmem, ⟨26, _⟩ => ⟨S2000x24, .f32⟩
  | .local _ .vmem, ⟨27, _⟩ => ⟨S2000x24, .f32⟩
  | .local _ .vmem, ⟨28, _⟩ => ⟨S24x6, .f32⟩
  | .local _ .vmem, ⟨29, _⟩ => ⟨S1x6, .f32⟩
  | .local _ .vmem, ⟨30, _⟩ => ⟨S24x6, .f32⟩
  | .local _ .vmem, ⟨31, _⟩ => ⟨S2000x6, .f32⟩
  | .local _ .vmem, ⟨32, _⟩ => ⟨S2000x6, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x12 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x12 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x12 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S12x24 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x24 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S12x24 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x24 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x24 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x24 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S24x6 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x6 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S24x6 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x6 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  bcast_S_S100000x6 : S_.BroadcastsInDim S100000x6 (![] : Fin 0 → Fin S100000x6.rank)
  shapeCasts_S12_S1x12 : S12.ShapeCasts S1x12
  transposes_S12x6_S6x12_1_0 : S12x6.Transposes [1, 0] S6x12
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x6_S2000x6_0_0 : ∀ a, (![0, 0] : Fin 2 → Nat) a + S2000x6.size a ≤ S2000x6.size a
  h_S2000x6 : 0 < S2000x6.numel
  shapeCasts_S2000x6_S2000x6 : S2000x6.ShapeCasts S2000x6
  broadcasts_S2000x1_S2000x6 : S2000x1.Broadcasts S2000x6
  bitsLt_bf16_f32 : FTy.bits .bf16 < FTy.bits .f32
  inb_S6x12_S6x12_0_0 : ∀ a, (![0, 0] : Fin 2 → Nat) a + S6x12.size a ≤ S6x12.size a
  h_S6x12 : 0 < S6x12.numel
  shapeCasts_S6x12_S6x12 : S6x12.ShapeCasts S6x12
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S2000x12 : S1x12.Broadcasts S2000x12
  inb_S2000x12_S2000x12_0_0 : ∀ a, (![0, 0] : Fin 2 → Nat) a + S2000x12.size a ≤ S2000x12.size a
  h_S2000x12 : 0 < S2000x12.numel
  bcast_S_S100000x12 : S_.BroadcastsInDim S100000x12 (![] : Fin 0 → Fin S100000x12.rank)
  shapeCasts_S24_S1x24 : S24.ShapeCasts S1x24
  transposes_S24x12_S12x24_1_0 : S24x12.Transposes [1, 0] S12x24
  shapeCasts_S2000x12_S2000x12 : S2000x12.ShapeCasts S2000x12
  broadcasts_S2000x1_S2000x12 : S2000x1.Broadcasts S2000x12
  inb_S12x24_S12x24_0_0 : ∀ a, (![0, 0] : Fin 2 → Nat) a + S12x24.size a ≤ S12x24.size a
  h_S12x24 : 0 < S12x24.numel
  shapeCasts_S12x24_S12x24 : S12x24.ShapeCasts S12x24
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S2000x24 : S1x24.Broadcasts S2000x24
  inb_S2000x24_S2000x24_0_0 : ∀ a, (![0, 0] : Fin 2 → Nat) a + S2000x24.size a ≤ S2000x24.size a
  h_S2000x24 : 0 < S2000x24.numel
  bcast_S_S100000x24 : S_.BroadcastsInDim S100000x24 (![] : Fin 0 → Fin S100000x24.rank)
  shapeCasts_S6_S1x6 : S6.ShapeCasts S1x6
  transposes_S6x24_S24x6_1_0 : S6x24.Transposes [1, 0] S24x6
  shapeCasts_S2000x24_S2000x24 : S2000x24.ShapeCasts S2000x24
  broadcasts_S2000x1_S2000x24 : S2000x1.Broadcasts S2000x24
  inb_S24x6_S24x6_0_0 : ∀ a, (![0, 0] : Fin 2 → Nat) a + S24x6.size a ≤ S24x6.size a
  h_S24x6 : 0 < S24x6.numel
  shapeCasts_S24x6_S24x6 : S24x6.ShapeCasts S24x6
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S2000x6 : S1x6.Broadcasts S2000x6
  scatter_S100000_S3200000x1_S3200000_n_0_0_1_wf : ScatterDims.WF S100000 S3200000x1 S3200000 [] [0] [0] 1
  gather_S100000x6_S3200000x1_S3200000x6_1_0_n_n_0_1_16_wf : GatherDims.WF S100000x6 S3200000x1 S3200000x6 [1] [0] [] [0] [] 1 ![1, 6]
  scatter_S100000x6_S3200000x1_S3200000x6_1_0_0_1_wf : ScatterDims.WF S100000x6 S3200000x1 S3200000x6 [1] [0] [0] 1
  dot_S2000x6_S6x12_S2000x12_1_0_0_1_n_n_wf : DotDims.WF S2000x6 S6x12 S2000x12 [1] [0] [0] [1] [] []
  gather_S100000x12_S3200000x1_S3200000x12_1_0_n_n_0_1_112_wf : GatherDims.WF S100000x12 S3200000x1 S3200000x12 [1] [0] [] [0] [] 1 ![1, 12]
  scatter_S100000x12_S3200000x1_S3200000x12_1_0_0_1_wf : ScatterDims.WF S100000x12 S3200000x1 S3200000x12 [1] [0] [0] 1
  dot_S2000x12_S12x24_S2000x24_1_0_0_1_n_n_wf : DotDims.WF S2000x12 S12x24 S2000x24 [1] [0] [0] [1] [] []
  gather_S100000x24_S3200000x1_S3200000x24_1_0_n_n_0_1_124_wf : GatherDims.WF S100000x24 S3200000x1 S3200000x24 [1] [0] [] [0] [] 1 ![1, 24]
  scatter_S100000x24_S3200000x1_S3200000x24_1_0_0_1_wf : ScatterDims.WF S100000x24 S3200000x1 S3200000x24 [1] [0] [0] 1
  dot_S2000x24_S24x6_S2000x6_1_0_0_1_n_n_wf : DotDims.WF S2000x24 S24x6 S2000x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x6.size a ≤ S100000x6.size a
  hwx0_0 : ∀ i : grid0.Coords, EltTy.bits .f32 = 32 ∨ (Rect.block (s := S100000x6) S2000x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x6.size a ≤ S100000x6.size a
  hwx0_2 : ∀ i : grid0.Coords, EltTy.bits .f32 = 32 ∨ (Rect.block (s := S100000x6) S2000x6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x12.size a ≤ S6x12.size a
  hwx0_3 : ∀ i : grid0.Coords, EltTy.bits .f32 = 32 ∨ (Rect.block (s := S6x12) S6x12.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x12.size a ≤ S1x12.size a
  hwx0_4 : ∀ i : grid0.Coords, EltTy.bits .f32 = 32 ∨ (Rect.block (s := S1x12) S1x12.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x12.size a ≤ S6x12.size a
  hwx0_5 : ∀ i : grid0.Coords, EltTy.bits .f32 = 32 ∨ (Rect.block (s := S6x12) S6x12.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x12.size a ≤ S100000x12.size a
  hwx0_6 : ∀ i : grid0.Coords, EltTy.bits .f32 = 32 ∨ (Rect.block (s := S100000x12) S2000x12.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x12.size a ≤ S100000x12.size a
  hwx1_0 : ∀ i : grid1.Coords, EltTy.bits .f32 = 32 ∨ (Rect.block (s := S100000x12) S2000x12.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x12.size a ≤ S100000x12.size a
  hwx1_2 : ∀ i : grid1.Coords, EltTy.bits .f32 = 32 ∨ (Rect.block (s := S100000x12) S2000x12.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S12x24.size a ≤ S12x24.size a
  hwx1_3 : ∀ i : grid1.Coords, EltTy.bits .f32 = 32 ∨ (Rect.block (s := S12x24) S12x24.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x24.size a ≤ S1x24.size a
  hwx1_4 : ∀ i : grid1.Coords, EltTy.bits .f32 = 32 ∨ (Rect.block (s := S1x24) S1x24.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S12x24.size a ≤ S12x24.size a
  hwx1_5 : ∀ i : grid1.Coords, EltTy.bits .f32 = 32 ∨ (Rect.block (s := S12x24) S12x24.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x24.size a ≤ S100000x24.size a
  hwx1_6 : ∀ i : grid1.Coords, EltTy.bits .f32 = 32 ∨ (Rect.block (s := S100000x24) S2000x24.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x24.size a ≤ S100000x24.size a
  hwx2_0 : ∀ i : grid2.Coords, EltTy.bits .f32 = 32 ∨ (Rect.block (s := S100000x24) S2000x24.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x24.size a ≤ S100000x24.size a
  hwx2_2 : ∀ i : grid2.Coords, EltTy.bits .f32 = 32 ∨ (Rect.block (s := S100000x24) S2000x24.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S24x6.size a ≤ S24x6.size a
  hwx2_3 : ∀ i : grid2.Coords, EltTy.bits .f32 = 32 ∨ (Rect.block (s := S24x6) S24x6.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x6.size a ≤ S1x6.size a
  hwx2_4 : ∀ i : grid2.Coords, EltTy.bits .f32 = 32 ∨ (Rect.block (s := S1x6) S1x6.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S24x6.size a ≤ S24x6.size a
  hwx2_5 : ∀ i : grid2.Coords, EltTy.bits .f32 = 32 ∨ (Rect.block (s := S24x6) S24x6.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x6.size a ≤ S100000x6.size a
  hwx2_6 : ∀ i : grid2.Coords, EltTy.bits .f32 = 32 ∨ (Rect.block (s := S100000x6) S2000x6.size (cc2_transform_6 i) (hinb2_6 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x6_S3200000x1_S3200000x6_1_0_n_n_0_1_16 : GatherDims S100000x6 S3200000x1 S3200000x6 where
  offsetDims := [1]
  collapsedSliceDims := [0]
  operandBatchingDims := []
  startIndicesBatchingDims := []
  startIndexMap := [0]
  indexVectorDim := 1
  sliceSizes := ![1, 6]
  wf := gather_S100000x6_S3200000x1_S3200000x6_1_0_n_n_0_1_16_wf
def scatter_S100000x6_S3200000x1_S3200000x6_1_0_0_1 : ScatterDims S100000x6 S3200000x1 S3200000x6 where
  updateWindowDims := [1]
  insertedWindowDims := [0]
  scatterDimsToOperandDims := [0]
  indexVectorDim := 1
  wf := scatter_S100000x6_S3200000x1_S3200000x6_1_0_0_1_wf
def dot_S2000x6_S6x12_S2000x12_1_0_0_1_n_n : DotDims S2000x6 S6x12 S2000x12 where
  lhsContracting := [1]
  rhsContracting := [0]
  lhsNonContracting := [0]
  rhsNonContracting := [1]
  lhsBatch := []
  rhsBatch := []
  wf := dot_S2000x6_S6x12_S2000x12_1_0_0_1_n_n_wf
def gather_S100000x12_S3200000x1_S3200000x12_1_0_n_n_0_1_112 : GatherDims S100000x12 S3200000x1 S3200000x12 where
  offsetDims := [1]
  collapsedSliceDims := [0]
  operandBatchingDims := []
  startIndicesBatchingDims := []
  startIndexMap := [0]
  indexVectorDim := 1
  sliceSizes := ![1, 12]
  wf := gather_S100000x12_S3200000x1_S3200000x12_1_0_n_n_0_1_112_wf
def scatter_S100000x12_S3200000x1_S3200000x12_1_0_0_1 : ScatterDims S100000x12 S3200000x1 S3200000x12 where
  updateWindowDims := [1]
  insertedWindowDims := [0]
  scatterDimsToOperandDims := [0]
  indexVectorDim := 1
  wf := scatter_S100000x12_S3200000x1_S3200000x12_1_0_0_1_wf
def dot_S2000x12_S12x24_S2000x24_1_0_0_1_n_n : DotDims S2000x12 S12x24 S2000x24 where
  lhsContracting := [1]
  rhsContracting := [0]
  lhsNonContracting := [0]
  rhsNonContracting := [1]
  lhsBatch := []
  rhsBatch := []
  wf := dot_S2000x12_S12x24_S2000x24_1_0_0_1_n_n_wf
def gather_S100000x24_S3200000x1_S3200000x24_1_0_n_n_0_1_124 : GatherDims S100000x24 S3200000x1 S3200000x24 where
  offsetDims := [1]
  collapsedSliceDims := [0]
  operandBatchingDims := []
  startIndicesBatchingDims := []
  startIndexMap := [0]
  indexVectorDim := 1
  sliceSizes := ![1, 24]
  wf := gather_S100000x24_S3200000x1_S3200000x24_1_0_n_n_0_1_124_wf
def scatter_S100000x24_S3200000x1_S3200000x24_1_0_0_1 : ScatterDims S100000x24 S3200000x1 S3200000x24 where
  updateWindowDims := [1]
  insertedWindowDims := [0]
  scatterDimsToOperandDims := [0]
  indexVectorDim := 1
  wf := scatter_S100000x24_S3200000x1_S3200000x24_1_0_0_1_wf
def dot_S2000x24_S24x6_S2000x6_1_0_0_1_n_n : DotDims S2000x24 S24x6 S2000x6 where
  lhsContracting := [1]
  rhsContracting := [0]
  lhsNonContracting := [0]
  rhsNonContracting := [1]
  lhsBatch := []
  rhsBatch := []
  wf := dot_S2000x24_S24x6_S2000x6_1_0_0_1_n_n_wf

abbrev win0_0 : Pipeline.Window sig grid0 :=
  Pipeline.Window.ofSpec (Memref.whole main_v18) S2000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x6.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S6x12.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x12.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S6x12.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S2000x12.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v32) S2000x12.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S2000x12.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S12x24.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x24.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S12x24.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S2000x24.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v46) S2000x24.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S2000x24.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v48) S24x6.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x6.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S24x6.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S2000x6.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x6 : Shape := ⟨2, ![100000, 6]⟩
abbrev S2x3200000 : Shape := ⟨2, ![2, 3200000]⟩
abbrev S12x6 : Shape := ⟨2, ![12, 6]⟩
abbrev S12 : Shape := ⟨1, ![12]⟩
abbrev S24x12 : Shape := ⟨2, ![24, 12]⟩
abbrev S24 : Shape := ⟨1, ![24]⟩
abbrev S6x24 : Shape := ⟨2, ![6, 24]⟩
abbrev S6 : Shape := ⟨1, ![6]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x6 : Shape := ⟨2, ![3200000, 6]⟩
abbrev S100000 : Shape := ⟨1, ![100000]⟩
abbrev S100000x1 : Shape := ⟨2, ![100000, 1]⟩
abbrev S6x12 : Shape := ⟨2, ![6, 12]⟩
abbrev S100000x12 : Shape := ⟨2, ![100000, 12]⟩
abbrev S1x12 : Shape := ⟨2, ![1, 12]⟩
abbrev S3200000x12 : Shape := ⟨2, ![3200000, 12]⟩
abbrev S12x24 : Shape := ⟨2, ![12, 24]⟩
abbrev S100000x24 : Shape := ⟨2, ![100000, 24]⟩
abbrev S1x24 : Shape := ⟨2, ![1, 24]⟩
abbrev S3200000x24 : Shape := ⟨2, ![3200000, 24]⟩
abbrev S24x6 : Shape := ⟨2, ![24, 6]⟩
abbrev S1x6 : Shape := ⟨2, ![1, 6]⟩

abbrev nBuf : Space → Nat
  | .hbm => 120
  | .vmem => 0
  | .smem => 0
  | _ => 0

abbrev bufTy : (tb : Table) → Fin (tcTables nBuf tb) → BufTy
  | .hbm, ⟨0, _⟩ => ⟨S100000x6, .f32⟩
  | .hbm, ⟨1, _⟩ => ⟨S2x3200000, .i32⟩
  | .hbm, ⟨2, _⟩ => ⟨S12x6, .f32⟩
  | .hbm, ⟨3, _⟩ => ⟨S12, .f32⟩
  | .hbm, ⟨4, _⟩ => ⟨S12x6, .f32⟩
  | .hbm, ⟨5, _⟩ => ⟨S24x12, .f32⟩
  | .hbm, ⟨6, _⟩ => ⟨S24, .f32⟩
  | .hbm, ⟨7, _⟩ => ⟨S24x12, .f32⟩
  | .hbm, ⟨8, _⟩ => ⟨S6x24, .f32⟩
  | .hbm, ⟨9, _⟩ => ⟨S6, .f32⟩
  | .hbm, ⟨10, _⟩ => ⟨S6x24, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x6, .f32⟩
  | .hbm, ⟨24, _⟩ => ⟨S_, .f32⟩
  | .hbm, ⟨25, _⟩ => ⟨S100000x6, .f32⟩
  | .hbm, ⟨26, _⟩ => ⟨S3200000x1, .i32⟩
  | .hbm, ⟨27, _⟩ => ⟨S100000x6, .f32⟩
  | .hbm, ⟨28, _⟩ => ⟨S_, .f32⟩
  | .hbm, ⟨29, _⟩ => ⟨S3200000, .f32⟩
  | .hbm, ⟨30, _⟩ => ⟨S_, .f32⟩
  | .hbm, ⟨31, _⟩ => ⟨S100000, .f32⟩
  | .hbm, ⟨32, _⟩ => ⟨S3200000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x6, .f32⟩
  | .hbm, ⟨39, _⟩ => ⟨S100000x6, .f32⟩
  | .hbm, ⟨40, _⟩ => ⟨S6x12, .f32⟩
  | .hbm, ⟨41, _⟩ => ⟨S100000x12, .f32⟩
  | .hbm, ⟨42, _⟩ => ⟨S1x12, .f32⟩
  | .hbm, ⟨43, _⟩ => ⟨S100000x12, .f32⟩
  | .hbm, ⟨44, _⟩ => ⟨S100000x12, .f32⟩
  | .hbm, ⟨45, _⟩ => ⟨S6x12, .f32⟩
  | .hbm, ⟨46, _⟩ => ⟨S100000x12, .f32⟩
  | .hbm, ⟨47, _⟩ => ⟨S100000x12, .f32⟩
  | .hbm, ⟨48, _⟩ => ⟨S_, .f32⟩
  | .hbm, ⟨49, _⟩ => ⟨S100000x12, .f32⟩
  | .hbm, ⟨50, _⟩ => ⟨S100000x12, .f32⟩
  | .hbm, ⟨51, _⟩ => ⟨S_, .i32⟩
  | .hbm, ⟨52, _⟩ => ⟨S3200000, .i32⟩
  | .hbm, ⟨53, _⟩ => ⟨S3200000, .i1⟩
  | .hbm, ⟨54, _⟩ => ⟨S_, .i32⟩
  | .hbm, ⟨55, _⟩ => ⟨S3200000, .i32⟩
  | .hbm, ⟨56, _⟩ => ⟨S3200000, .i32⟩
  | .hbm, ⟨57, _⟩ => ⟨S3200000, .i32⟩
  | .hbm, ⟨58, _⟩ => ⟨S3200000x1, .i32⟩
  | .hbm, ⟨59, _⟩ => ⟨S3200000x12, .f32⟩
  | .hbm, ⟨60, _⟩ => ⟨S_, .f32⟩
  | .hbm, ⟨61, _⟩ => ⟨S100000x12, .f32⟩
  | .hbm, ⟨62, _⟩ => ⟨S3200000x1, .i32⟩
  | .hbm, ⟨63, _⟩ => ⟨S100000x12, .f32⟩
  | .hbm, ⟨64, _⟩ => ⟨S_, .f32⟩
  | .hbm, ⟨65, _⟩ => ⟨S3200000, .f32⟩
  | .hbm, ⟨66, _⟩ => ⟨S_, .f32⟩
  | .hbm, ⟨67, _⟩ => ⟨S100000, .f32⟩
  | .hbm, ⟨68, _⟩ => ⟨S3200000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x12, .f32⟩
  | .hbm, ⟨75, _⟩ => ⟨S100000x12, .f32⟩
  | .hbm, ⟨76, _⟩ => ⟨S12x24, .f32⟩
  | .hbm, ⟨77, _⟩ => ⟨S100000x24, .f32⟩
  | .hbm, ⟨78, _⟩ => ⟨S1x24, .f32⟩
  | .hbm, ⟨79, _⟩ => ⟨S100000x24, .f32⟩
  | .hbm, ⟨80, _⟩ => ⟨S100000x24, .f32⟩
  | .hbm, ⟨81, _⟩ => ⟨S12x24, .f32⟩
  | .hbm, ⟨82, _⟩ => ⟨S100000x24, .f32⟩
  | .hbm, ⟨83, _⟩ => ⟨S100000x24, .f32⟩
  | .hbm, ⟨84, _⟩ => ⟨S_, .f32⟩
  | .hbm, ⟨85, _⟩ => ⟨S100000x24, .f32⟩
  | .hbm, ⟨86, _⟩ => ⟨S100000x24, .f32⟩
  | .hbm, ⟨87, _⟩ => ⟨S_, .i32⟩
  | .hbm, ⟨88, _⟩ => ⟨S3200000, .i32⟩
  | .hbm, ⟨89, _⟩ => ⟨S3200000, .i1⟩
  | .hbm, ⟨90, _⟩ => ⟨S_, .i32⟩
  | .hbm, ⟨91, _⟩ => ⟨S3200000, .i32⟩
  | .hbm, ⟨92, _⟩ => ⟨S3200000, .i32⟩
  | .hbm, ⟨93, _⟩ => ⟨S3200000, .i32⟩
  | .hbm, ⟨94, _⟩ => ⟨S3200000x1, .i32⟩
  | .hbm, ⟨95, _⟩ => ⟨S3200000x24, .f32⟩
  | .hbm, ⟨96, _⟩ => ⟨S_, .f32⟩
  | .hbm, ⟨97, _⟩ => ⟨S100000x24, .f32⟩
  | .hbm, ⟨98, _⟩ => ⟨S3200000x1, .i32⟩
  | .hbm, ⟨99, _⟩ => ⟨S100000x24, .f32⟩
  | .hbm, ⟨100, _⟩ => ⟨S_, .f32⟩
  | .hbm, ⟨101, _⟩ => ⟨S3200000, .f32⟩
  | .hbm, ⟨102, _⟩ => ⟨S_, .f32⟩
  | .hbm, ⟨103, _⟩ => ⟨S100000, .f32⟩
  | .hbm, ⟨104, _⟩ => ⟨S3200000x1, .i32⟩
  | .hbm, ⟨105, _⟩ => ⟨S100000, .f32⟩
  | .hbm, ⟨106, _⟩ => ⟨S_, .f32⟩
  | .hbm, ⟨107, _⟩ => ⟨S100000, .f32⟩
  | .hbm, ⟨108, _⟩ => ⟨S100000, .f32⟩
  | .hbm, ⟨109, _⟩ => ⟨S100000x1, .f32⟩
  | .hbm, ⟨110, _⟩ => ⟨S100000x24, .f32⟩
  | .hbm, ⟨111, _⟩ => ⟨S100000x24, .f32⟩
  | .hbm, ⟨112, _⟩ => ⟨S24x6, .f32⟩
  | .hbm, ⟨113, _⟩ => ⟨S100000x6, .f32⟩
  | .hbm, ⟨114, _⟩ => ⟨S1x6, .f32⟩
  | .hbm, ⟨115, _⟩ => ⟨S100000x6, .f32⟩
  | .hbm, ⟨116, _⟩ => ⟨S100000x6, .f32⟩
  | .hbm, ⟨117, _⟩ => ⟨S24x6, .f32⟩
  | .hbm, ⟨118, _⟩ => ⟨S100000x6, .f32⟩
  | .hbm, ⟨119, _⟩ => ⟨S100000x6, .f32⟩
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x6 : S_.BroadcastsInDim S100000x6 (![] : Fin 0 → Fin S100000x6.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x6_0_1 : S100000x1.BroadcastsInDim S100000x6 (![0, 1] : Fin 2 → Fin S100000x6.rank)
  transposes_S12x6_S6x12_1_0 : S12x6.Transposes [1, 0] S6x12
  bcast_S12_S1x12_1 : S12.BroadcastsInDim S1x12 (![1] : Fin 1 → Fin S1x12.rank)
  bcast_S1x12_S100000x12_0_1 : S1x12.BroadcastsInDim S100000x12 (![0, 1] : Fin 2 → Fin S100000x12.rank)
  bcast_S_S100000x12 : S_.BroadcastsInDim S100000x12 (![] : Fin 0 → Fin S100000x12.rank)
  bcast_S100000x1_S100000x12_0_1 : S100000x1.BroadcastsInDim S100000x12 (![0, 1] : Fin 2 → Fin S100000x12.rank)
  transposes_S24x12_S12x24_1_0 : S24x12.Transposes [1, 0] S12x24
  bcast_S24_S1x24_1 : S24.BroadcastsInDim S1x24 (![1] : Fin 1 → Fin S1x24.rank)
  bcast_S1x24_S100000x24_0_1 : S1x24.BroadcastsInDim S100000x24 (![0, 1] : Fin 2 → Fin S100000x24.rank)
  bcast_S_S100000x24 : S_.BroadcastsInDim S100000x24 (![] : Fin 0 → Fin S100000x24.rank)
  bcast_S100000x1_S100000x24_0_1 : S100000x1.BroadcastsInDim S100000x24 (![0, 1] : Fin 2 → Fin S100000x24.rank)
  transposes_S6x24_S24x6_1_0 : S6x24.Transposes [1, 0] S24x6
  bcast_S6_S1x6_1 : S6.BroadcastsInDim S1x6 (![1] : Fin 1 → Fin S1x6.rank)
  bcast_S1x6_S100000x6_0_1 : S1x6.BroadcastsInDim S100000x6 (![0, 1] : Fin 2 → Fin S100000x6.rank)
  gather_S100000x6_S3200000x1_S3200000x6_1_0_n_n_0_1_16_wf : GatherDims.WF S100000x6 S3200000x1 S3200000x6 [1] [0] [] [0] [] 1 ![1, 6]
  scatter_S100000x6_S3200000x1_S3200000x6_1_0_0_1_wf : ScatterDims.WF S100000x6 S3200000x1 S3200000x6 [1] [0] [0] 1
  scatter_S100000_S3200000x1_S3200000_n_0_0_1_wf : ScatterDims.WF S100000 S3200000x1 S3200000 [] [0] [0] 1
  dot_S100000x6_S6x12_S100000x12_1_0_0_1_n_n_wf : DotDims.WF S100000x6 S6x12 S100000x12 [1] [0] [0] [1] [] []
  gather_S100000x12_S3200000x1_S3200000x12_1_0_n_n_0_1_112_wf : GatherDims.WF S100000x12 S3200000x1 S3200000x12 [1] [0] [] [0] [] 1 ![1, 12]
  scatter_S100000x12_S3200000x1_S3200000x12_1_0_0_1_wf : ScatterDims.WF S100000x12 S3200000x1 S3200000x12 [1] [0] [0] 1
  dot_S100000x12_S12x24_S100000x24_1_0_0_1_n_n_wf : DotDims.WF S100000x12 S12x24 S100000x24 [1] [0] [0] [1] [] []
  gather_S100000x24_S3200000x1_S3200000x24_1_0_n_n_0_1_124_wf : GatherDims.WF S100000x24 S3200000x1 S3200000x24 [1] [0] [] [0] [] 1 ![1, 24]
  scatter_S100000x24_S3200000x1_S3200000x24_1_0_0_1_wf : ScatterDims.WF S100000x24 S3200000x1 S3200000x24 [1] [0] [0] 1
  dot_S100000x24_S24x6_S100000x6_1_0_0_1_n_n_wf : DotDims.WF S100000x24 S24x6 S100000x6 [1] [0] [0] [1] [] []

variable [Facts₀]

def gather_S100000x6_S3200000x1_S3200000x6_1_0_n_n_0_1_16 : GatherDims S100000x6 S3200000x1 S3200000x6 where
  offsetDims := [1]
  collapsedSliceDims := [0]
  operandBatchingDims := []
  startIndicesBatchingDims := []
  startIndexMap := [0]
  indexVectorDim := 1
  sliceSizes := ![1, 6]
  wf := gather_S100000x6_S3200000x1_S3200000x6_1_0_n_n_0_1_16_wf
def scatter_S100000x6_S3200000x1_S3200000x6_1_0_0_1 : ScatterDims S100000x6 S3200000x1 S3200000x6 where
  updateWindowDims := [1]
  insertedWindowDims := [0]
  scatterDimsToOperandDims := [0]
  indexVectorDim := 1
  wf := scatter_S100000x6_S3200000x1_S3200000x6_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x6_S6x12_S100000x12_1_0_0_1_n_n : DotDims S100000x6 S6x12 S100000x12 where
  lhsContracting := [1]
  rhsContracting := [0]
  lhsNonContracting := [0]
  rhsNonContracting := [1]
  lhsBatch := []
  rhsBatch := []
  wf := dot_S100000x6_S6x12_S100000x12_1_0_0_1_n_n_wf
def gather_S100000x12_S3200000x1_S3200000x12_1_0_n_n_0_1_112 : GatherDims S100000x12 S3200000x1 S3200000x12 where
  offsetDims := [1]
  collapsedSliceDims := [0]
  operandBatchingDims := []
  startIndicesBatchingDims := []
  startIndexMap := [0]
  indexVectorDim := 1
  sliceSizes := ![1, 12]
  wf := gather_S100000x12_S3200000x1_S3200000x12_1_0_n_n_0_1_112_wf
def scatter_S100000x12_S3200000x1_S3200000x12_1_0_0_1 : ScatterDims S100000x12 S3200000x1 S3200000x12 where
  updateWindowDims := [1]
  insertedWindowDims := [0]
  scatterDimsToOperandDims := [0]
  indexVectorDim := 1
  wf := scatter_S100000x12_S3200000x1_S3200000x12_1_0_0_1_wf
def dot_S100000x12_S12x24_S100000x24_1_0_0_1_n_n : DotDims S100000x12 S12x24 S100000x24 where
  lhsContracting := [1]
  rhsContracting := [0]
  lhsNonContracting := [0]
  rhsNonContracting := [1]
  lhsBatch := []
  rhsBatch := []
  wf := dot_S100000x12_S12x24_S100000x24_1_0_0_1_n_n_wf
def gather_S100000x24_S3200000x1_S3200000x24_1_0_n_n_0_1_124 : GatherDims S100000x24 S3200000x1 S3200000x24 where
  offsetDims := [1]
  collapsedSliceDims := [0]
  operandBatchingDims := []
  startIndicesBatchingDims := []
  startIndexMap := [0]
  indexVectorDim := 1
  sliceSizes := ![1, 24]
  wf := gather_S100000x24_S3200000x1_S3200000x24_1_0_n_n_0_1_124_wf
def scatter_S100000x24_S3200000x1_S3200000x24_1_0_0_1 : ScatterDims S100000x24 S3200000x1 S3200000x24 where
  updateWindowDims := [1]
  insertedWindowDims := [0]
  scatterDimsToOperandDims := [0]
  indexVectorDim := 1
  wf := scatter_S100000x24_S3200000x1_S3200000x24_1_0_0_1_wf
def dot_S100000x24_S24x6_S100000x6_1_0_0_1_n_n : DotDims S100000x24 S24x6 S100000x6 where
  lhsContracting := [1]
  rhsContracting := [0]
  lhsNonContracting := [0]
  rhsNonContracting := [1]
  lhsBatch := []
  rhsBatch := []
  wf := dot_S100000x24_S24x6_S100000x6_1_0_0_1_n_n_wf

class Facts : Prop extends Facts₀ where

variable [Facts]
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.SageSpec.lean ====
/-
  One graph-convolution layer of the mean-aggregating kind, as a function of whole arrays, index by index.

  For node features `h : [M, K]`, the per-node sums of neighbour features `agg : [M, K]`, the per-node neighbour
  counts `cnt : [M]`, two weight matrices already transposed `wl wr : [K, N]` and a bias `b : [N]`, the layer's
  value at node `r` and output feature `c` is

      (∑ₖ (agg r k / max (cnt r) 1) · wl k c) + b c + ∑ₖ h r k · wr k c,

  read on the extended reals with the exact operations, the sums associated exactly as written: first the
  neighbour-mean product, then the bias, then the residual product. `relu` clamps an array at zero from below.
  Two small layout facts the blocked and the whole-array computations of this value meet are proved here too: a
  column `[a, 1]` broadcast along rows to `[a, b]`, and a vector `[a]` recast as a column `[a, 1]`.
-/
import Idealize.ShloMosaic.PureOps.Ideal.Laws
import Idealize.ShloMosaic.Lib.ValueIdx
import Idealize.ShloMosaic.Lib.ValueLayout

noncomputable section

namespace Cert.Sage

open Idealize.ShloMosaic Idealize.ShloMosaic.ValueIdx

variable {M K N : Nat}

/-- The layer before its activation: mean of the neighbours through `wl`, plus the bias, plus the node itself
    through `wr`. -/
def lin (agg : FVec Ideal ⟨2, ![M, K]⟩ .f32) (cnt : FVec Ideal ⟨1, ![M]⟩ .f32) (h : FVec Ideal ⟨2, ![M, K]⟩ .f32)
    (wl : FVec Ideal ⟨2, ![K, N]⟩ .f32) (b : FVec Ideal ⟨1, ![N]⟩ .f32) (wr : FVec Ideal ⟨2, ![K, N]⟩ .f32) :
    FVec Ideal ⟨2, ![M, N]⟩ .f32 := fun j =>
  ((∑ k : Fin K, Ideal.div (agg (ix2 (n0 := M) (j 0) k)) (max (cnt (ix1 (n := M) (j 0))) (Ideal.ofBits .f32 0x3F800000#32))
        * wl (ix2 (n1 := N) k (j 1)))
      + b (ix1 (n := N) (j 1)))
    + ∑ k : Fin K, h (ix2 (n0 := M) (j 0) k) * wr (ix2 (n1 := N) k (j 1))

theorem lin_apply (agg : FVec Ideal ⟨2, ![M, K]⟩ .f32) (cnt : FVec Ideal ⟨1, ![M]⟩ .f32) (h : FVec Ideal ⟨2, ![M, K]⟩ .f32)
    (wl : FVec Ideal ⟨2, ![K, N]⟩ .f32) (b : FVec Ideal ⟨1, ![N]⟩ .f32) (wr : FVec Ideal ⟨2, ![K, N]⟩ .f32)
    (r : Fin M) (c : Fin N) :
    lin agg cnt h wl b wr (ix2 r c)
      = ((∑ k : Fin K, Ideal.div (agg (ix2 r k)) (max (cnt (ix1 r)) (Ideal.ofBits .f32 0x3F800000#32)) * wl (ix2 k c))
          + b (ix1 c))
        + ∑ k : Fin K, h (ix2 r k) * wr (ix2 k c) := rfl

/-- Clamping at zero from below, entry by entry. -/
def relu {S : Shape} (v : FVec Ideal S .f32) : FVec Ideal S .f32 := fun j => max (v j) (Ideal.ofBits .f32 0x00000000#32)

theorem relu_apply {S : Shape} (v : FVec Ideal S .f32) (j : S.Idx) :
    relu v j = max (v j) (Ideal.ofBits .f32 0x00000000#32) := rfl

/-! ## Two layout facts -/

variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` recast as a column `[a, 1]` reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Sage

end
-- ==== Proof.KerPay.lean ====
/-
  What one block's store holds, entry by entry, for each of the three layers of the network.

  A block of 2000 nodes is given its neighbour-count column cnt : [2000, 1], its block of summed neighbour features
  agg : [2000, K], its own feature block h : [2000, K], two weight matrices wl wr : [K, N] and a bias row b : [1, N].
  The stored block's entry at row p and column c is

      (∑ₖ (agg p k / max (cnt p 0) 1) · wl k c) + b 0 c + ∑ₖ h p k · wr k c,

  clamped at zero from below for the first two layers and as it stands for the third. On the extended reals a
  rounding to a narrower format is the identity, a recast of a shape to itself changes nothing, a column broadcast
  along rows reads the column at its row, a row broadcast along columns reads the row at its column, and a product
  of blocks into the zero accumulator is the sum over the one contracted coordinate. The sums are associated exactly
  as written: first the neighbour-mean product, then the bias, then the product with the node's own features.
-/
import proofs.«424874_j42279658062121_3_alg».proof.Proof.Gen.KernelIdeal.Skeleton
import proofs.«424874_j42279658062121_3_alg».proof.Proof.LibDotSum
import proofs.«424874_j42279658062121_3_alg».proof.Proof.SageSpec
import Idealize.ShloMosaic.Lib.ValueIdx
import Idealize.ShloMosaic.Lib.ValueLayout
import Idealize.ShloMosaic.Lib.Pipeline.Value
import Idealize.ShloMosaic.PureOps.Ideal.Laws

noncomputable section

namespace Cert.KerPay

open Cert.KernelIdeal Cert.KernelIdeal.Gen Idealize.ShloMosaic Idealize.ShloMosaic.ValueIdx Cert.Sage Cert.Lib

/-- The first layer's block at (p, c): the layer's sum at that entry, clamped at zero from below. -/
theorem pay0_apply (v0 : Vec Ideal S2000x1 .f32) (v2 v9 : Vec Ideal S2000x6 .f32) (v11 v14 : Vec Ideal S6x12 .f32)
    (v18 : Vec Ideal S1x12 .f32) (p : Fin 2000) (c : Fin 12) :
    k0_pay1 (F := Ideal) v0 v2 v9 v11 v14 v18 (ix2 p c)
      = max (((∑ k : Fin 6, Ideal.div (v2 (ix2 p k)) (max (v0 (ix2 p (0 : Fin 1))) (Ideal.ofBits .f32 0x3F800000#32)) * v11 (ix2 k c))
              + v18 (ix2 (0 : Fin 1) c))
            + ∑ k : Fin 6, v9 (ix2 p k) * v14 (ix2 k c))
          (Ideal.ofBits .f32 0x00000000#32) := by
  unfold k0_pay1
  simp only [shapeCast_self]
  rw [maximumf_apply, addf_apply, addf_apply, broadcast_apply,
    matmul_rc_apply _ rfl rfl rfl rfl rfl rfl, matmul_rc_apply _ rfl rfl rfl rfl rfl rfl,
    broadcastTo_1b_ab_apply]
  simp only [truncf_apply, divf_apply, broadcastTo_a1_ab_apply, maximumf_apply, broadcast_apply]
  rfl

/-- The second layer's block at (p, c): the layer's sum at that entry, clamped at zero from below. -/
theorem pay1_apply (v0 : Vec Ideal S2000x1 .f32) (v2 v9 : Vec Ideal S2000x12 .f32) (v12 v15 : Vec Ideal S12x24 .f32)
    (v19 : Vec Ideal S1x24 .f32) (p : Fin 2000) (c : Fin 24) :
    k1_pay1 (F := Ideal) v0 v2 v9 v12 v15 v19 (ix2 p c)
      = max (((∑ k : Fin 12, Ideal.div (v2 (ix2 p k)) (max (v0 (ix2 p (0 : Fin 1))) (Ideal.ofBits .f32 0x3F800000#32)) * v12 (ix2 k c))
              + v19 (ix2 (0 : Fin 1) c))
            + ∑ k : Fin 12, v9 (ix2 p k) * v15 (ix2 k c))
          (Ideal.ofBits .f32 0x00000000#32) := by
  unfold k1_pay1
  simp only [shapeCast_self]
  rw [maximumf_apply, addf_apply, addf_apply, broadcast_apply,
    matmul_rc_apply _ rfl rfl rfl rfl rfl rfl, matmul_rc_apply _ rfl rfl rfl rfl rfl rfl,
    broadcastTo_1b_ab_apply]
  simp only [truncf_apply, divf_apply, broadcastTo_a1_ab_apply, maximumf_apply, broadcast_apply]
  rfl

/-- The third layer's block at (p, c): the layer's sum at that entry, with no clamp. -/
theorem pay2_apply (v0 : Vec Ideal S2000x1 .f32) (v2 v9 : Vec Ideal S2000x24 .f32) (v12 v15 : Vec Ideal S24x6 .f32)
    (v19 : Vec Ideal S1x6 .f32) (p : Fin 2000) (c : Fin 6) :
    k2_pay1 (F := Ideal) v0 v2 v9 v12 v15 v19 (ix2 p c)
      = ((∑ k : Fin 24, Ideal.div (v2 (ix2 p k)) (max (v0 (ix2 p (0 : Fin 1))) (Ideal.ofBits .f32 0x3F800000#32)) * v12 (ix2 k c))
            + v19 (ix2 (0 : Fin 1) c))
          + ∑ k : Fin 24, v9 (ix2 p k) * v15 (ix2 k c) := by
  unfold k2_pay1
  simp only [shapeCast_self]
  rw [addf_apply, addf_apply,
    matmul_rc_apply _ rfl rfl rfl rfl rfl rfl, matmul_rc_apply _ rfl rfl rfl rfl rfl rfl,
    broadcastTo_1b_ab_apply]
  simp only [truncf_apply, divf_apply, broadcastTo_a1_ab_apply, maximumf_apply, broadcast_apply]
  rfl

end Cert.KerPay

end
-- ==== Proof.Region0.lean ====
/-
  The first layer's region of the blocked program: its output array as ONE function of the arrays the region finds.

  The region walks the 100000 nodes in 50 blocks of 2000 rows. At block `t` it reads rows `2000·t … 2000·t + 1999` of the
  neighbour sums, of the neighbour counts (a column) and of the node features, and the whole of the two weight
  matrices and of the bias row; it writes rows `2000·t … 2000·t + 1999` of the result. Row `r` of the result depends
  only on row `r` of the three row-blocked inputs, so what block `t` writes is block `t` of one whole-array function
  (`layer`), and since the 50 blocks tile the rows, the result array ends holding that function everywhere.
-/
import proofs.«424874_j42279658062121_3_alg».proof.Proof.KernelIdealFrameP
import proofs.«424874_j42279658062121_3_alg».proof.Proof.KerPay
import proofs.«424874_j42279658062121_3_alg».proof.Proof.SageSpec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen Cert.KernelIdeal.GenP Cert.Sage Cert.KerPay

variable (V : (c : Dev nD) → (b : Ref sig .tc) → Buf (Elt Ideal) ((c : Thread nD τ).loc b))

theorem hz : (![0, 0] : Fin 2 → Nat) = fun _ => 0 := funext fun a => by fin_cases a <;> rfl

/-- Row `p` of block `s` is row `2000·s + p` of the array. -/
def row (s : ℕ) (hs : s < 50) (p : Fin 2000) : Fin 100000 := ⟨s * 2000 + p.val, by have := p.isLt; omega⟩

/-- The layer as a function of the region's six arrays: the counts arrive as a column, the bias as a row. -/
def layer (A0 : FVec Ideal S100000x6 .f32) (A1 : FVec Ideal S100000x1 .f32) (A2 : FVec Ideal S100000x6 .f32)
    (A3 : FVec Ideal S6x12 .f32) (A4 : FVec Ideal S1x12 .f32) (A5 : FVec Ideal S6x12 .f32) : FVec Ideal S100000x12 .f32 :=
  relu (lin A0 (fun i => A1 (ix2 (n0 := 100000) (i 0) (0 : Fin 1))) A2 A3 (fun i => A4 (ix2 (n1 := 12) (0 : Fin 1) (i 0))) A5)

/-- What block `s` stores at `(p, q)` is the layer at row `2000·s + p`: the three row-blocked inputs are read at
    that row, the weights and the bias whole. -/
theorem point_eq (x0 : Vec Ideal S2000x6 .f32) (x1 : Vec Ideal S2000x1 .f32) (x2 : Vec Ideal S2000x6 .f32)
    (A0 : FVec Ideal S100000x6 .f32) (A1 : FVec Ideal S100000x1 .f32) (A2 : FVec Ideal S100000x6 .f32)
    (A3 : FVec Ideal S6x12 .f32) (A4 : FVec Ideal S1x12 .f32) (A5 : FVec Ideal S6x12 .f32)
    (s : ℕ) (hs : s < 50)
    (h0 : ∀ (p : Fin 2000) (k : Fin 6), x0 (ix2 p k) = A0 (ix2 (row s hs p) k))
    (h1 : ∀ (p : Fin 2000), x1 (ix2 p (0 : Fin 1)) = A1 (ix2 (row s hs p) (0 : Fin 1)))
    (h2 : ∀ (p : Fin 2000) (k : Fin 6), x2 (ix2 p k) = A2 (ix2 (row s hs p) k))
    (p : Fin 2000) (q : Fin 12) :
    k0_pay1 (F := Ideal) x1 x0 x2 A3 A5 A4 (ix2 p q) = layer A0 A1 A2 A3 A4 A5 (ix2 (row s hs p) q) := by
  rw [pay0_apply]
  unfold layer
  rw [relu_apply, lin_apply]
  simp only [h0, h1, h2]

/-- The printed index maps over the grid: the row-blocked windows sit at block `t`, the weights and the bias at
    block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- WHAT POINT `t` WRITES BACK is block `t` of the layer of the arrays as the region finds them. -/
theorem flushed_eq (c : Dev nD) (t : Fin cfg0.N) :
    (dat0 V c).flushed 6 t = ((cfg0.win 6).blk t).view.read (Elt Ideal)
      (layer (V c main_v18) (V c main_v8) (V c main_arg0) (V c main_v20) (V c main_v19) (V c main_v21)) := by
  show (cfg0.win 6).cut (grid0.coords t) ((dat0 V c).after 6 t) = _
  rw [after0_6]
  unfold out0_6
  rw [View.canon_unit_zero hz]
  simp only [View.ld_unit_zero (S := S2000x6) hz, View.ld_unit_zero (S := S2000x1) hz, View.ld_unit_zero (S := S6x12) hz, View.ld_unit_zero (S := S1x12) hz]
  obtain ⟨e00, e01, e10, e11, e20, e21, e30, e31, e40, e41, e50, e51, e60, e61⟩ := idx_facts t
  have ht : t.val < 50 := lt_of_lt_of_eq t.isLt N_0
  funext j
  obtain ⟨p, q, rfl⟩ : ∃ (p : Fin 2000) (q : Fin 12), j = ix2 p q := ⟨j 0, j 1, eq_ix2 j⟩
  show k0_pay1 (F := Ideal) (iblk0 V c 1 t) (iblk0 V c 0 t) (iblk0 V c 2 t) (iblk0 V c 3 t) (iblk0 V c 5 t) (iblk0 V c 4 t) (ix2 p q)
     = layer (V c main_v18) (V c main_v8) (V c main_arg0) (V c main_v20) (V c main_v19) (V c main_v21) (((cfg0.win 6).blk t).view.emb (ix2 p q))
  -- the weights and the bias: block 0 of an array of one block is the array
  have e3 : (iblk0 V c 3 t : Vec Ideal S6x12 .f32) = V c main_v20 := by
    funext y
    show V c main_v20 (((cfg0.win 3).blk t).view.emb y) = V c main_v20 y
    refine congrArg (V c main_v20) (funext fun a => Fin.ext ?_)
    match a with
    | ⟨0, _⟩ => show win0_3.index t (0 : Fin 2) * 6 + 1 * (y 0).val = (y 0).val; omega
    | ⟨1, _⟩ => show win0_3.index t (1 : Fin 2) * 12 + 1 * (y 1).val = (y 1).val; omega
  have e4 : (iblk0 V c 4 t : Vec Ideal S1x12 .f32) = V c main_v19 := by
    funext y
    show V c main_v19 (((cfg0.win 4).blk t).view.emb y) = V c main_v19 y
    refine congrArg (V c main_v19) (funext fun a => Fin.ext ?_)
    match a with
    | ⟨0, _⟩ => show win0_4.index t (0 : Fin 2) * 1 + 1 * (y 0).val = (y 0).val; omega
    | ⟨1, _⟩ => show win0_4.index t (1 : Fin 2) * 12 + 1 * (y 1).val = (y 1).val; omega
  have e5 : (iblk0 V c 5 t : Vec Ideal S6x12 .f32) = V c main_v21 := by
    funext y
    show V c main_v21 (((cfg0.win 5).blk t).view.emb y) = V c main_v21 y
    refine congrArg (V c main_v21) (funext fun a => Fin.ext ?_)
    match a with
    | ⟨0, _⟩ => show win0_5.index t (0 : Fin 2) * 6 + 1 * (y 0).val = (y 0).val; omega
    | ⟨1, _⟩ => show win0_5.index t (1 : Fin 2) * 12 + 1 * (y 1).val = (y 1).val; omega
  rw [e3, e4, e5]
  -- the three row-blocked inputs: row p of block t is row 2000·t + p
  refine (point_eq (iblk0 V c 0 t) (iblk0 V c 1 t) (iblk0 V c 2 t) (V c main_v18) (V c main_v8) (V c main_arg0) (V c main_v20) (V c main_v19) (V c main_v21) t.val ht ?_ ?_ ?_ p q).trans ?_
  · intro p k
    show V c main_v18 (((cfg0.win 0).blk t).view.emb (ix2 p k)) = V c main_v18 (ix2 (row t.val ht p) k)
    refine congrArg (V c main_v18) (funext fun a => Fin.ext ?_)
    match a with
    | ⟨0, _⟩ => show win0_0.index t (0 : Fin 2) * 2000 + 1 * p.val = t.val * 2000 + p.val; omega
    | ⟨1, _⟩ => show win0_0.index t (1 : Fin 2) * 6 + 1 * k.val = k.val; omega
  · intro p
    show V c main_v8 (((cfg0.win 1).blk t).view.emb (ix2 p (0 : Fin 1))) = V c main_v8 (ix2 (row t.val ht p) (0 : Fin 1))
    refine congrArg (V c main_v8) (funext fun a => Fin.ext ?_)
    match a with
    | ⟨0, _⟩ => show win0_1.index t (0 : Fin 2) * 2000 + 1 * p.val = t.val * 2000 + p.val; omega
    | ⟨1, _⟩ => show win0_1.index t (1 : Fin 2) * 1 + 1 * 0 = 0; omega
  · intro p k
    show V c main_arg0 (((cfg0.win 2).blk t).view.emb (ix2 p k)) = V c main_arg0 (ix2 (row t.val ht p) k)
    refine congrArg (V c main_arg0) (funext fun a => Fin.ext ?_)
    match a with
    | ⟨0, _⟩ => show win0_2.index t (0 : Fin 2) * 2000 + 1 * p.val = t.val * 2000 + p.val; omega
    | ⟨1, _⟩ => show win0_2.index t (1 : Fin 2) * 6 + 1 * k.val = k.val; omega
  · refine congrArg (layer (V c main_v18) (V c main_v8) (V c main_arg0) (V c main_v20) (V c main_v19) (V c main_v21)) (funext fun a => Fin.ext ?_)
    match a with
    | ⟨0, _⟩ => show t.val * 2000 + p.val = win0_6.index t (0 : Fin 2) * 2000 + 1 * p.val; omega
    | ⟨1, _⟩ => show q.val = win0_6.index t (1 : Fin 2) * 12 + 1 * q.val; omega

/-- An index of the result array is in point `t`'s block iff each coordinate is in the block's range on its axis. -/
theorem mem_blk (t : Fin cfg0.N) (i : S100000x12.Idx) :
    i ∈ ((cfg0.win 6).blk t).view.set ↔ ∀ a : Fin 2, win0_6.index t a * S2000x12.size a ≤ (i a).val ∧ (i a).val < win0_6.index t a * S2000x12.size a + S2000x12.size a := by
  show i ∈ ((View.whole main_v22).slice (win0_6.rect t)).set ↔ _
  rw [View.set_slice_whole, Rect.mem_set_unit]
  exact Iff.rfl

/-- THE RESULT ARRAY after the region: the layer of the arrays as the region finds them. Row `r` lies in block
    `r / 2000`, and every block is written back. -/
theorem final (c : Dev nD) :
    (dat0 V c).arrAt 6 cfg0.N = layer (V c main_v18) (V c main_v8) (V c main_arg0) (V c main_v20) (V c main_v19) (V c main_v21) :=
  (dat0 V c).arrAt_eq_of_cover 6 _ (fun t _ => flushed_eq V c t) fun i => by
    have hi0 : (i 0).val < 100000 := (i 0).isLt
    have hi1 : (i 1).val < 12 := (i 1).isLt
    have hN : cfg0.N = 50 := N_0
    let t : Fin cfg0.N := ⟨(i 0).val / 2000, by rw [hN]; omega⟩
    have htv : t.val = (i 0).val / 2000 := rfl
    obtain ⟨e00, e01, e10, e11, e20, e21, e30, e31, e40, e41, e50, e51, e60, e61⟩ := idx_facts t
    refine ⟨t, flush0_6 t, ?_⟩
    rw [mem_blk]
    intro a
    match a with
    | ⟨0, _⟩ => show win0_6.index t (0 : Fin 2) * 2000 ≤ (i 0).val ∧ (i 0).val < win0_6.index t (0 : Fin 2) * 2000 + 2000; omega
    | ⟨1, _⟩ => show win0_6.index t (1 : Fin 2) * 12 ≤ (i 1).val ∧ (i 1).val < win0_6.index t (1 : Fin 2) * 12 + 12; omega

end Cert.KernelIdeal.Reg0

end
-- ==== Proof.Region1.lean ====
/-
  The second layer's region of the blocked program: its output array as ONE function of the arrays the region finds.

  The region walks the 100000 nodes in 50 blocks of 2000 rows. At block `t` it reads rows `2000·t … 2000·t + 1999` of the
  neighbour sums, of the neighbour counts (a column) and of the node features, and the whole of the two weight
  matrices and of the bias row; it writes rows `2000·t … 2000·t + 1999` of the result. Row `r` of the result depends
  only on row `r` of the three row-blocked inputs, so what block `t` writes is block `t` of one whole-array function
  (`layer`), and since the 50 blocks tile the rows, the result array ends holding that function everywhere.
-/
import proofs.«424874_j42279658062121_3_alg».proof.Proof.KernelIdealFrameP
import proofs.«424874_j42279658062121_3_alg».proof.Proof.KerPay
import proofs.«424874_j42279658062121_3_alg».proof.Proof.SageSpec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg1

open Cert.KernelIdeal Cert.KernelIdeal.Gen Cert.KernelIdeal.GenP Cert.Sage Cert.KerPay

variable (V : (c : Dev nD) → (b : Ref sig .tc) → Buf (Elt Ideal) ((c : Thread nD τ).loc b))

theorem hz : (![0, 0] : Fin 2 → Nat) = fun _ => 0 := funext fun a => by fin_cases a <;> rfl

/-- Row `p` of block `s` is row `2000·s + p` of the array. -/
def row (s : ℕ) (hs : s < 50) (p : Fin 2000) : Fin 100000 := ⟨s * 2000 + p.val, by have := p.isLt; omega⟩

/-- The layer as a function of the region's six arrays: the counts arrive as a column, the bias as a row. -/
def layer (A0 : FVec Ideal S100000x12 .f32) (A1 : FVec Ideal S100000x1 .f32) (A2 : FVec Ideal S100000x12 .f32)
    (A3 : FVec Ideal S12x24 .f32) (A4 : FVec Ideal S1x24 .f32) (A5 : FVec Ideal S12x24 .f32) : FVec Ideal S100000x24 .f32 :=
  relu (lin A0 (fun i => A1 (ix2 (n0 := 100000) (i 0) (0 : Fin 1))) A2 A3 (fun i => A4 (ix2 (n1 := 24) (0 : Fin 1) (i 0))) A5)

/-- What block `s` stores at `(p, q)` is the layer at row `2000·s + p`: the three row-blocked inputs are read at
    that row, the weights and the bias whole. -/
theorem point_eq (x0 : Vec Ideal S2000x12 .f32) (x1 : Vec Ideal S2000x1 .f32) (x2 : Vec Ideal S2000x12 .f32)
    (A0 : FVec Ideal S100000x12 .f32) (A1 : FVec Ideal S100000x1 .f32) (A2 : FVec Ideal S100000x12 .f32)
    (A3 : FVec Ideal S12x24 .f32) (A4 : FVec Ideal S1x24 .f32) (A5 : FVec Ideal S12x24 .f32)
    (s : ℕ) (hs : s < 50)
    (h0 : ∀ (p : Fin 2000) (k : Fin 12), x0 (ix2 p k) = A0 (ix2 (row s hs p) k))
    (h1 : ∀ (p : Fin 2000), x1 (ix2 p (0 : Fin 1)) = A1 (ix2 (row s hs p) (0 : Fin 1)))
    (h2 : ∀ (p : Fin 2000) (k : Fin 12), x2 (ix2 p k) = A2 (ix2 (row s hs p) k))
    (p : Fin 2000) (q : Fin 24) :
    k1_pay1 (F := Ideal) x1 x0 x2 A3 A5 A4 (ix2 p q) = layer A0 A1 A2 A3 A4 A5 (ix2 (row s hs p) q) := by
  rw [pay1_apply]
  unfold layer
  rw [relu_apply, lin_apply]
  simp only [h0, h1, h2]

/-- The printed index maps over the grid: the row-blocked windows sit at block `t`, the weights and the bias at
    block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- WHAT POINT `t` WRITES BACK is block `t` of the layer of the arrays as the region finds them. -/
theorem flushed_eq (c : Dev nD) (t : Fin cfg1.N) :
    (dat1 V c).flushed 6 t = ((cfg1.win 6).blk t).view.read (Elt Ideal)
      (layer (V c main_v32) (V c main_v8) (V c main_v22) (V c main_v34) (V c main_v33) (V c main_v35)) := by
  show (cfg1.win 6).cut (grid1.coords t) ((dat1 V c).after 6 t) = _
  rw [after1_6]
  unfold out1_6
  rw [View.canon_unit_zero hz]
  simp only [View.ld_unit_zero (S := S2000x12) hz, View.ld_unit_zero (S := S2000x1) hz, View.ld_unit_zero (S := S12x24) hz, View.ld_unit_zero (S := S1x24) hz]
  obtain ⟨e00, e01, e10, e11, e20, e21, e30, e31, e40, e41, e50, e51, e60, e61⟩ := idx_facts t
  have ht : t.val < 50 := lt_of_lt_of_eq t.isLt N_1
  funext j
  obtain ⟨p, q, rfl⟩ : ∃ (p : Fin 2000) (q : Fin 24), j = ix2 p q := ⟨j 0, j 1, eq_ix2 j⟩
  show k1_pay1 (F := Ideal) (iblk1 V c 1 t) (iblk1 V c 0 t) (iblk1 V c 2 t) (iblk1 V c 3 t) (iblk1 V c 5 t) (iblk1 V c 4 t) (ix2 p q)
     = layer (V c main_v32) (V c main_v8) (V c main_v22) (V c main_v34) (V c main_v33) (V c main_v35) (((cfg1.win 6).blk t).view.emb (ix2 p q))
  -- the weights and the bias: block 0 of an array of one block is the array
  have e3 : (iblk1 V c 3 t : Vec Ideal S12x24 .f32) = V c main_v34 := by
    funext y
    show V c main_v34 (((cfg1.win 3).blk t).view.emb y) = V c main_v34 y
    refine congrArg (V c main_v34) (funext fun a => Fin.ext ?_)
    match a with
    | ⟨0, _⟩ => show win1_3.index t (0 : Fin 2) * 12 + 1 * (y 0).val = (y 0).val; omega
    | ⟨1, _⟩ => show win1_3.index t (1 : Fin 2) * 24 + 1 * (y 1).val = (y 1).val; omega
  have e4 : (iblk1 V c 4 t : Vec Ideal S1x24 .f32) = V c main_v33 := by
    funext y
    show V c main_v33 (((cfg1.win 4).blk t).view.emb y) = V c main_v33 y
    refine congrArg (V c main_v33) (funext fun a => Fin.ext ?_)
    match a with
    | ⟨0, _⟩ => show win1_4.index t (0 : Fin 2) * 1 + 1 * (y 0).val = (y 0).val; omega
    | ⟨1, _⟩ => show win1_4.index t (1 : Fin 2) * 24 + 1 * (y 1).val = (y 1).val; omega
  have e5 : (iblk1 V c 5 t : Vec Ideal S12x24 .f32) = V c main_v35 := by
    funext y
    show V c main_v35 (((cfg1.win 5).blk t).view.emb y) = V c main_v35 y
    refine congrArg (V c main_v35) (funext fun a => Fin.ext ?_)
    match a with
    | ⟨0, _⟩ => show win1_5.index t (0 : Fin 2) * 12 + 1 * (y 0).val = (y 0).val; omega
    | ⟨1, _⟩ => show win1_5.index t (1 : Fin 2) * 24 + 1 * (y 1).val = (y 1).val; omega
  rw [e3, e4, e5]
  -- the three row-blocked inputs: row p of block t is row 2000·t + p
  refine (point_eq (iblk1 V c 0 t) (iblk1 V c 1 t) (iblk1 V c 2 t) (V c main_v32) (V c main_v8) (V c main_v22) (V c main_v34) (V c main_v33) (V c main_v35) t.val ht ?_ ?_ ?_ p q).trans ?_
  · intro p k
    show V c main_v32 (((cfg1.win 0).blk t).view.emb (ix2 p k)) = V c main_v32 (ix2 (row t.val ht p) k)
    refine congrArg (V c main_v32) (funext fun a => Fin.ext ?_)
    match a with
    | ⟨0, _⟩ => show win1_0.index t (0 : Fin 2) * 2000 + 1 * p.val = t.val * 2000 + p.val; omega
    | ⟨1, _⟩ => show win1_0.index t (1 : Fin 2) * 12 + 1 * k.val = k.val; omega
  · intro p
    show V c main_v8 (((cfg1.win 1).blk t).view.emb (ix2 p (0 : Fin 1))) = V c main_v8 (ix2 (row t.val ht p) (0 : Fin 1))
    refine congrArg (V c main_v8) (funext fun a => Fin.ext ?_)
    match a with
    | ⟨0, _⟩ => show win1_1.index t (0 : Fin 2) * 2000 + 1 * p.val = t.val * 2000 + p.val; omega
    | ⟨1, _⟩ => show win1_1.index t (1 : Fin 2) * 1 + 1 * 0 = 0; omega
  · intro p k
    show V c main_v22 (((cfg1.win 2).blk t).view.emb (ix2 p k)) = V c main_v22 (ix2 (row t.val ht p) k)
    refine congrArg (V c main_v22) (funext fun a => Fin.ext ?_)
    match a with
    | ⟨0, _⟩ => show win1_2.index t (0 : Fin 2) * 2000 + 1 * p.val = t.val * 2000 + p.val; omega
    | ⟨1, _⟩ => show win1_2.index t (1 : Fin 2) * 12 + 1 * k.val = k.val; omega
  · refine congrArg (layer (V c main_v32) (V c main_v8) (V c main_v22) (V c main_v34) (V c main_v33) (V c main_v35)) (funext fun a => Fin.ext ?_)
    match a with
    | ⟨0, _⟩ => show t.val * 2000 + p.val = win1_6.index t (0 : Fin 2) * 2000 + 1 * p.val; omega
    | ⟨1, _⟩ => show q.val = win1_6.index t (1 : Fin 2) * 24 + 1 * q.val; omega

/-- An index of the result array is in point `t`'s block iff each coordinate is in the block's range on its axis. -/
theorem mem_blk (t : Fin cfg1.N) (i : S100000x24.Idx) :
    i ∈ ((cfg1.win 6).blk t).view.set ↔ ∀ a : Fin 2, win1_6.index t a * S2000x24.size a ≤ (i a).val ∧ (i a).val < win1_6.index t a * S2000x24.size a + S2000x24.size a := by
  show i ∈ ((View.whole main_v36).slice (win1_6.rect t)).set ↔ _
  rw [View.set_slice_whole, Rect.mem_set_unit]
  exact Iff.rfl

/-- THE RESULT ARRAY after the region: the layer of the arrays as the region finds them. Row `r` lies in block
    `r / 2000`, and every block is written back. -/
theorem final (c : Dev nD) :
    (dat1 V c).arrAt 6 cfg1.N = layer (V c main_v32) (V c main_v8) (V c main_v22) (V c main_v34) (V c main_v33) (V c main_v35) :=
  (dat1 V c).arrAt_eq_of_cover 6 _ (fun t _ => flushed_eq V c t) fun i => by
    have hi0 : (i 0).val < 100000 := (i 0).isLt
    have hi1 : (i 1).val < 24 := (i 1).isLt
    have hN : cfg1.N = 50 := N_1
    let t : Fin cfg1.N := ⟨(i 0).val / 2000, by rw [hN]; omega⟩
    have htv : t.val = (i 0).val / 2000 := rfl
    obtain ⟨e00, e01, e10, e11, e20, e21, e30, e31, e40, e41, e50, e51, e60, e61⟩ := idx_facts t
    refine ⟨t, flush1_6 t, ?_⟩
    rw [mem_blk]
    intro a
    match a with
    | ⟨0, _⟩ => show win1_6.index t (0 : Fin 2) * 2000 ≤ (i 0).val ∧ (i 0).val < win1_6.index t (0 : Fin 2) * 2000 + 2000; omega
    | ⟨1, _⟩ => show win1_6.index t (1 : Fin 2) * 12 ≤ (i 1).val ∧ (i 1).val < win1_6.index t (1 : Fin 2) * 24 + 24; omega

end Cert.KernelIdeal.Reg1

end
-- ==== Proof.Region2.lean ====
/-
  The third layer's region of the blocked program: its output array as ONE function of the arrays the region finds.

  The region walks the 100000 nodes in 50 blocks of 2000 rows. At block `t` it reads rows `2000·t … 2000·t + 1999` of the
  neighbour sums, of the neighbour counts (a column) and of the node features, and the whole of the two weight
  matrices and of the bias row; it writes rows `2000·t … 2000·t + 1999` of the result. Row `r` of the result depends
  only on row `r` of the three row-blocked inputs, so what block `t` writes is block `t` of one whole-array function
  (`layer`), and since the 50 blocks tile the rows, the result array ends holding that function everywhere.
-/
import proofs.«424874_j42279658062121_3_alg».proof.Proof.KernelIdealFrameP
import proofs.«424874_j42279658062121_3_alg».proof.Proof.KerPay
import proofs.«424874_j42279658062121_3_alg».proof.Proof.SageSpec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg2

open Cert.KernelIdeal Cert.KernelIdeal.Gen Cert.KernelIdeal.GenP Cert.Sage Cert.KerPay

variable (V : (c : Dev nD) → (b : Ref sig .tc) → Buf (Elt Ideal) ((c : Thread nD τ).loc b))

theorem hz : (![0, 0] : Fin 2 → Nat) = fun _ => 0 := funext fun a => by fin_cases a <;> rfl

/-- Row `p` of block `s` is row `2000·s + p` of the array. -/
def row (s : ℕ) (hs : s < 50) (p : Fin 2000) : Fin 100000 := ⟨s * 2000 + p.val, by have := p.isLt; omega⟩

/-- The layer as a function of the region's six arrays: the counts arrive as a column, the bias as a row. -/
def layer (A0 : FVec Ideal S100000x24 .f32) (A1 : FVec Ideal S100000x1 .f32) (A2 : FVec Ideal S100000x24 .f32)
    (A3 : FVec Ideal S24x6 .f32) (A4 : FVec Ideal S1x6 .f32) (A5 : FVec Ideal S24x6 .f32) : FVec Ideal S100000x6 .f32 :=
  lin A0 (fun i => A1 (ix2 (n0 := 100000) (i 0) (0 : Fin 1))) A2 A3 (fun i => A4 (ix2 (n1 := 6) (0 : Fin 1) (i 0))) A5

/-- What block `s` stores at `(p, q)` is the layer at row `2000·s + p`: the three row-blocked inputs are read at
    that row, the weights and the bias whole. -/
theorem point_eq (x0 : Vec Ideal S2000x24 .f32) (x1 : Vec Ideal S2000x1 .f32) (x2 : Vec Ideal S2000x24 .f32)
    (A0 : FVec Ideal S100000x24 .f32) (A1 : FVec Ideal S100000x1 .f32) (A2 : FVec Ideal S100000x24 .f32)
    (A3 : FVec Ideal S24x6 .f32) (A4 : FVec Ideal S1x6 .f32) (A5 : FVec Ideal S24x6 .f32)
    (s : ℕ) (hs : s < 50)
    (h0 : ∀ (p : Fin 2000) (k : Fin 24), x0 (ix2 p k) = A0 (ix2 (row s hs p) k))
    (h1 : ∀ (p : Fin 2000), x1 (ix2 p (0 : Fin 1)) = A1 (ix2 (row s hs p) (0 : Fin 1)))
    (h2 : ∀ (p : Fin 2000) (k : Fin 24), x2 (ix2 p k) = A2 (ix2 (row s hs p) k))
    (p : Fin 2000) (q : Fin 6) :
    k2_pay1 (F := Ideal) x1 x0 x2 A3 A5 A4 (ix2 p q) = layer A0 A1 A2 A3 A4 A5 (ix2 (row s hs p) q) := by
  rw [pay2_apply]
  unfold layer
  rw [lin_apply]
  simp only [h0, h1, h2]

/-- The printed index maps over the grid: the row-blocked windows sit at block `t`, the weights and the bias at
    block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- WHAT POINT `t` WRITES BACK is block `t` of the layer of the arrays as the region finds them. -/
theorem flushed_eq (c : Dev nD) (t : Fin cfg2.N) :
    (dat2 V c).flushed 6 t = ((cfg2.win 6).blk t).view.read (Elt Ideal)
      (layer (V c main_v46) (V c main_v8) (V c main_v36) (V c main_v48) (V c main_v47) (V c main_v49)) := by
  show (cfg2.win 6).cut (grid2.coords t) ((dat2 V c).after 6 t) = _
  rw [after2_6]
  unfold out2_6
  rw [View.canon_unit_zero hz]
  simp only [View.ld_unit_zero (S := S2000x24) hz, View.ld_unit_zero (S := S2000x1) hz, View.ld_unit_zero (S := S24x6) hz, View.ld_unit_zero (S := S1x6) hz]
  obtain ⟨e00, e01, e10, e11, e20, e21, e30, e31, e40, e41, e50, e51, e60, e61⟩ := idx_facts t
  have ht : t.val < 50 := lt_of_lt_of_eq t.isLt N_2
  funext j
  obtain ⟨p, q, rfl⟩ : ∃ (p : Fin 2000) (q : Fin 6), j = ix2 p q := ⟨j 0, j 1, eq_ix2 j⟩
  show k2_pay1 (F := Ideal) (iblk2 V c 1 t) (iblk2 V c 0 t) (iblk2 V c 2 t) (iblk2 V c 3 t) (iblk2 V c 5 t) (iblk2 V c 4 t) (ix2 p q)
     = layer (V c main_v46) (V c main_v8) (V c main_v36) (V c main_v48) (V c main_v47) (V c main_v49) (((cfg2.win 6).blk t).view.emb (ix2 p q))
  -- the weights and the bias: block 0 of an array of one block is the array
  have e3 : (iblk2 V c 3 t : Vec Ideal S24x6 .f32) = V c main_v48 := by
    funext y
    show V c main_v48 (((cfg2.win 3).blk t).view.emb y) = V c main_v48 y
    refine congrArg (V c main_v48) (funext fun a => Fin.ext ?_)
    match a with
    | ⟨0, _⟩ => show win2_3.index t (0 : Fin 2) * 24 + 1 * (y 0).val = (y 0).val; omega
    | ⟨1, _⟩ => show win2_3.index t (1 : Fin 2) * 6 + 1 * (y 1).val = (y 1).val; omega
  have e4 : (iblk2 V c 4 t : Vec Ideal S1x6 .f32) = V c main_v47 := by
    funext y
    show V c main_v47 (((cfg2.win 4).blk t).view.emb y) = V c main_v47 y
    refine congrArg (V c main_v47) (funext fun a => Fin.ext ?_)
    match a with
    | ⟨0, _⟩ => show win2_4.index t (0 : Fin 2) * 1 + 1 * (y 0).val = (y 0).val; omega
    | ⟨1, _⟩ => show win2_4.index t (1 : Fin 2) * 6 + 1 * (y 1).val = (y 1).val; omega
  have e5 : (iblk2 V c 5 t : Vec Ideal S24x6 .f32) = V c main_v49 := by
    funext y
    show V c main_v49 (((cfg2.win 5).blk t).view.emb y) = V c main_v49 y
    refine congrArg (V c main_v49) (funext fun a => Fin.ext ?_)
    match a with
    | ⟨0, _⟩ => show win2_5.index t (0 : Fin 2) * 24 + 1 * (y 0).val = (y 0).val; omega
    | ⟨1, _⟩ => show win2_5.index t (1 : Fin 2) * 6 + 1 * (y 1).val = (y 1).val; omega
  rw [e3, e4, e5]
  -- the three row-blocked inputs: row p of block t is row 2000·t + p
  refine (point_eq (iblk2 V c 0 t) (iblk2 V c 1 t) (iblk2 V c 2 t) (V c main_v46) (V c main_v8) (V c main_v36) (V c main_v48) (V c main_v47) (V c main_v49) t.val ht ?_ ?_ ?_ p q).trans ?_
  · intro p k
    show V c main_v46 (((cfg2.win 0).blk t).view.emb (ix2 p k)) = V c main_v46 (ix2 (row t.val ht p) k)
    refine congrArg (V c main_v46) (funext fun a => Fin.ext ?_)
    match a with
    | ⟨0, _⟩ => show win2_0.index t (0 : Fin 2) * 2000 + 1 * p.val = t.val * 2000 + p.val; omega
    | ⟨1, _⟩ => show win2_0.index t (1 : Fin 2) * 24 + 1 * k.val = k.val; omega
  · intro p
    show V c main_v8 (((cfg2.win 1).blk t).view.emb (ix2 p (0 : Fin 1))) = V c main_v8 (ix2 (row t.val ht p) (0 : Fin 1))
    refine congrArg (V c main_v8) (funext fun a => Fin.ext ?_)
    match a with
    | ⟨0, _⟩ => show win2_1.index t (0 : Fin 2) * 2000 + 1 * p.val = t.val * 2000 + p.val; omega
    | ⟨1, _⟩ => show win2_1.index t (1 : Fin 2) * 1 + 1 * 0 = 0; omega
  · intro p k
    show V c main_v36 (((cfg2.win 2).blk t).view.emb (ix2 p k)) = V c main_v36 (ix2 (row t.val ht p) k)
    refine congrArg (V c main_v36) (funext fun a => Fin.ext ?_)
    match a with
    | ⟨0, _⟩ => show win2_2.index t (0 : Fin 2) * 2000 + 1 * p.val = t.val * 2000 + p.val; omega
    | ⟨1, _⟩ => show win2_2.index t (1 : Fin 2) * 24 + 1 * k.val = k.val; omega
  · refine congrArg (layer (V c main_v46) (V c main_v8) (V c main_v36) (V c main_v48) (V c main_v47) (V c main_v49)) (funext fun a => Fin.ext ?_)
    match a with
    | ⟨0, _⟩ => show t.val * 2000 + p.val = win2_6.index t (0 : Fin 2) * 2000 + 1 * p.val; omega
    | ⟨1, _⟩ => show q.val = win2_6.index t (1 : Fin 2) * 6 + 1 * q.val; omega

/-- An index of the result array is in point `t`'s block iff each coordinate is in the block's range on its axis. -/
theorem mem_blk (t : Fin cfg2.N) (i : S100000x6.Idx) :
    i ∈ ((cfg2.win 6).blk t).view.set ↔ ∀ a : Fin 2, win2_6.index t a * S2000x6.size a ≤ (i a).val ∧ (i a).val < win2_6.index t a * S2000x6.size a + S2000x6.size a := by
  show i ∈ ((View.whole main_v50).slice (win2_6.rect t)).set ↔ _
  rw [View.set_slice_whole, Rect.mem_set_unit]
  exact Iff.rfl

/-- THE RESULT ARRAY after the region: the layer of the arrays as the region finds them. Row `r` lies in block
    `r / 2000`, and every block is written back. -/
theorem final (c : Dev nD) :
    (dat2 V c).arrAt 6 cfg2.N = layer (V c main_v46) (V c main_v8) (V c main_v36) (V c main_v48) (V c main_v47) (V c main_v49) :=
  (dat2 V c).arrAt_eq_of_cover 6 _ (fun t _ => flushed_eq V c t) fun i => by
    have hi0 : (i 0).val < 100000 := (i 0).isLt
    have hi1 : (i 1).val < 6 := (i 1).isLt
    have hN : cfg2.N = 50 := N_2
    let t : Fin cfg2.N := ⟨(i 0).val / 2000, by rw [hN]; omega⟩
    have htv : t.val = (i 0).val / 2000 := rfl
    obtain ⟨e00, e01, e10, e11, e20, e21, e30, e31, e40, e41, e50, e51, e60, e61⟩ := idx_facts t
    refine ⟨t, flush2_6 t, ?_⟩
    rw [mem_blk]
    intro a
    match a with
    | ⟨0, _⟩ => show win2_6.index t (0 : Fin 2) * 2000 ≤ (i 0).val ∧ (i 0).val < win2_6.index t (0 : Fin 2) * 2000 + 2000; omega
    | ⟨1, _⟩ => show win2_6.index t (1 : Fin 2) * 12 ≤ (i 1).val ∧ (i 1).val < win2_6.index t (1 : Fin 2) * 6 + 6; omega

end Cert.KernelIdeal.Reg2

end
-- ==== Proof.SageProgram.lean ====
/-
  The whole computation as ONE function of the eleven argument arrays: three mean-aggregation layers over a fixed
  edge list, the first two clamped at zero.

  The edge list `e : [2, E]` holds a source row and a destination row of node numbers. A negative source number is
  shifted up by the node count before it is used (`src`); destinations are used as they are (`dst`). For node
  features `h`, `aggD h e` gathers the source node's feature row for every edge and adds it into the destination
  node's row of a zero array (`D` the feature width: 6, 12, 24); `cnt e` adds a one per edge into the destination
  node's entry of a zero vector. Gather and scatter-add are the host's own operations and stay unopened: both
  programs apply the same ones to the same operands, so only the values that go into them have to agree.
  `value` chains three layers `Cert.Sage.lin`, each over the aggregate of the layer before.
-/
import proofs.«424874_j42279658062121_3_alg».proof.Proof.Gen.ReferenceIdeal
import proofs.«424874_j42279658062121_3_alg».proof.Proof.SageSpec

noncomputable section

namespace Cert.SageProg

open Cert.ReferenceIdeal Cert.ReferenceIdeal.Gen Idealize.ShloMosaic Cert.Sage

variable {F : FTy → Type} [FloatOps F]

/-- Row `r` of the edge list, as a vector over the edges. -/
def srcRow (e : (⟨S2x3200000, .i32⟩ : BufTy).Contents (Elt F)) : (⟨S3200000, .i32⟩ : BufTy).Contents (Elt F) :=
  shapeCast _ (extractStridedSlice S1x3200000 ![0, 0] (e) slices_S2x3200000_S1x3200000_0_0) shapeCasts_S1x3200000_S3200000

def dstRow (e : (⟨S2x3200000, .i32⟩ : BufTy).Contents (Elt F)) : (⟨S3200000, .i32⟩ : BufTy).Contents (Elt F) :=
  shapeCast _ (extractStridedSlice S1x3200000 ![1, 0] (e) slices_S2x3200000_S1x3200000_1_0) shapeCasts_S1x3200000_S3200000

/-- The source node of every edge as a gather index: a negative number counts from the end. -/
def src (e : (⟨S2x3200000, .i32⟩ : BufTy).Contents (Elt F)) : (⟨S3200000x1, .i32⟩ : BufTy).Contents (Elt F) :=
  broadcastInDim S3200000x1 ![0] bcast_S3200000_S3200000x1_0
    (select (cmpi .slt (srcRow (F := F) e) (broadcastInDim S3200000 ![] bcast_S_S3200000 (constantI S_ 32 0#32)))
      (addi (srcRow (F := F) e) (broadcastInDim S3200000 ![] bcast_S_S3200000 (constantI S_ 32 100000#32)))
      (srcRow (F := F) e))

/-- The destination node of every edge as a scatter index. -/
def dst (e : (⟨S2x3200000, .i32⟩ : BufTy).Contents (Elt F)) : (⟨S3200000x1, .i32⟩ : BufTy).Contents (Elt F) :=
  broadcastInDim S3200000x1 ![0] bcast_S3200000_S3200000x1_0 (dstRow (F := F) e)

/-- How many edges end at each node. -/
def cnt (e : (⟨S2x3200000, .i32⟩ : BufTy).Contents (Elt F)) : (⟨S100000, .f32⟩ : BufTy).Contents (Elt F) :=
  Host.scatterAdd scatter_S100000_S3200000x1_S3200000_n_0_0_1
    (broadcastInDim S100000 ![] bcast_S_S100000 (constant S_ .f32 0x00000000#32)) (dst (F := F) e)
    (broadcastInDim S3200000 ![] bcast_S_S3200000 (constant S_ .f32 0x3F800000#32))

/-- The sum, per node, of its in-neighbours' feature rows (width 6). -/
def agg6 (h : (⟨S100000x6, .f32⟩ : BufTy).Contents (Elt F)) (e : (⟨S2x3200000, .i32⟩ : BufTy).Contents (Elt F)) :
    (⟨S100000x6, .f32⟩ : BufTy).Contents (Elt F) :=
  Host.scatterAdd scatter_S100000x6_S3200000x1_S3200000x6_1_0_0_1
    (broadcastInDim S100000x6 ![] bcast_S_S100000x6 (constant S_ .f32 0x00000000#32)) (dst (F := F) e)
    (Host.gather gather_S100000x6_S3200000x1_S3200000x6_1_0_n_n_0_1_16 (h) (src (F := F) e))

/-- The same at width 12. -/
def agg12 (h : (⟨S100000x12, .f32⟩ : BufTy).Contents (Elt F)) (e : (⟨S2x3200000, .i32⟩ : BufTy).Contents (Elt F)) :
    (⟨S100000x12, .f32⟩ : BufTy).Contents (Elt F) :=
  Host.scatterAdd scatter_S100000x12_S3200000x1_S3200000x12_1_0_0_1
    (broadcastInDim S100000x12 ![] bcast_S_S100000x12 (constant S_ .f32 0x00000000#32)) (dst (F := F) e)
    (Host.gather gather_S100000x12_S3200000x1_S3200000x12_1_0_n_n_0_1_112 (h) (src (F := F) e))

/-- The same at width 24. -/
def agg24 (h : (⟨S100000x24, .f32⟩ : BufTy).Contents (Elt F)) (e : (⟨S2x3200000, .i32⟩ : BufTy).Contents (Elt F)) :
    (⟨S100000x24, .f32⟩ : BufTy).Contents (Elt F) :=
  Host.scatterAdd scatter_S100000x24_S3200000x1_S3200000x24_1_0_0_1
    (broadcastInDim S100000x24 ![] bcast_S_S100000x24 (constant S_ .f32 0x00000000#32)) (dst (F := F) e)
    (Host.gather gather_S100000x24_S3200000x1_S3200000x24_1_0_n_n_0_1_124 (h) (src (F := F) e))

/-- The three weight transposes. -/
def tr1 (w : (⟨S12x6, .f32⟩ : BufTy).Contents (Elt F)) : (⟨S6x12, .f32⟩ : BufTy).Contents (Elt F) :=
  transpose S6x12 [1, 0] (w) transposes_S12x6_S6x12_1_0
def tr2 (w : (⟨S24x12, .f32⟩ : BufTy).Contents (Elt F)) : (⟨S12x24, .f32⟩ : BufTy).Contents (Elt F) :=
  transpose S12x24 [1, 0] (w) transposes_S24x12_S12x24_1_0
def tr3 (w : (⟨S6x24, .f32⟩ : BufTy).Contents (Elt F)) : (⟨S24x6, .f32⟩ : BufTy).Contents (Elt F) :=
  transpose S24x6 [1, 0] (w) transposes_S6x24_S24x6_1_0

/-- The first hidden layer: width 6 to width 12, clamped at zero. -/
def hidden1 (x : (⟨S100000x6, .f32⟩ : BufTy).Contents (Elt Ideal)) (e : (⟨S2x3200000, .i32⟩ : BufTy).Contents (Elt Ideal))
    (w1l : (⟨S12x6, .f32⟩ : BufTy).Contents (Elt Ideal)) (b1 : (⟨S12, .f32⟩ : BufTy).Contents (Elt Ideal))
    (w1r : (⟨S12x6, .f32⟩ : BufTy).Contents (Elt Ideal)) : (⟨S100000x12, .f32⟩ : BufTy).Contents (Elt Ideal) :=
  relu (lin (agg6 (F := Ideal) x e) (cnt (F := Ideal) e) x (tr1 (F := Ideal) w1l) b1 (tr1 (F := Ideal) w1r))

/-- The second hidden layer: width 12 to width 24, clamped at zero. -/
def hidden2 (h1 : (⟨S100000x12, .f32⟩ : BufTy).Contents (Elt Ideal)) (e : (⟨S2x3200000, .i32⟩ : BufTy).Contents (Elt Ideal))
    (w2l : (⟨S24x12, .f32⟩ : BufTy).Contents (Elt Ideal)) (b2 : (⟨S24, .f32⟩ : BufTy).Contents (Elt Ideal))
    (w2r : (⟨S24x12, .f32⟩ : BufTy).Contents (Elt Ideal)) : (⟨S100000x24, .f32⟩ : BufTy).Contents (Elt Ideal) :=
  relu (lin (agg12 (F := Ideal) h1 e) (cnt (F := Ideal) e) h1 (tr2 (F := Ideal) w2l) b2 (tr2 (F := Ideal) w2r))

/-- The output layer: width 24 to width 6, not clamped. -/
def output3 (h2 : (⟨S100000x24, .f32⟩ : BufTy).Contents (Elt Ideal)) (e : (⟨S2x3200000, .i32⟩ : BufTy).Contents (Elt Ideal))
    (w3l : (⟨S6x24, .f32⟩ : BufTy).Contents (Elt Ideal)) (b3 : (⟨S6, .f32⟩ : BufTy).Contents (Elt Ideal))
    (w3r : (⟨S6x24, .f32⟩ : BufTy).Contents (Elt Ideal)) : (⟨S100000x6, .f32⟩ : BufTy).Contents (Elt Ideal) :=
  lin (agg24 (F := Ideal) h2 e) (cnt (F := Ideal) e) h2 (tr3 (F := Ideal) w3l) b3 (tr3 (F := Ideal) w3r)

/-- The node encoding: the three layers in sequence. -/
def value (x : (⟨S100000x6, .f32⟩ : BufTy).Contents (Elt Ideal)) (e : (⟨S2x3200000, .i32⟩ : BufTy).Contents (Elt Ideal))
    (w1l : (⟨S12x6, .f32⟩ : BufTy).Contents (Elt Ideal)) (b1 : (⟨S12, .f32⟩ : BufTy).Contents (Elt Ideal))
    (w1r : (⟨S12x6, .f32⟩ : BufTy).Contents (Elt Ideal))
    (w2l : (⟨S24x12, .f32⟩ : BufTy).Contents (Elt Ideal)) (b2 : (⟨S24, .f32⟩ : BufTy).Contents (Elt Ideal))
    (w2r : (⟨S24x12, .f32⟩ : BufTy).Contents (Elt Ideal))
    (w3l : (⟨S6x24, .f32⟩ : BufTy).Contents (Elt Ideal)) (b3 : (⟨S6, .f32⟩ : BufTy).Contents (Elt Ideal))
    (w3r : (⟨S6x24, .f32⟩ : BufTy).Contents (Elt Ideal)) : (⟨S100000x6, .f32⟩ : BufTy).Contents (Elt Ideal) :=
  output3 (hidden2 (hidden1 x e w1l b1 w1r) e w2l b2 w2r) e w3l b3 w3r

end Cert.SageProg

end
-- ==== Proof.KerStretch.lean ====
/-
  What the host operations between the regions leave in the buffers the regions read, as functions of the launch
  memory and of the region outputs.

  @main of the blocked program is three stretches of host operations, each followed by a region. A stretch computes,
  from the edge list, the gather index of the sources and the scatter index of the destinations, gathers the previous
  layer's feature rows along the edges and adds them into the destination rows (`aggD`), recasts the bias vector as a
  row and transposes the two weight matrices; the first stretch also counts the edges per destination (`cnt`), recast as
  a column, which all three regions read. Each fact below reads ONE buffer after ONE stretch: the stretch's operations
  applied to what the stretch was entered with, the buffers it does not write unchanged.
-/
import proofs.«424874_j42279658062121_3_alg».proof.Proof.KernelIdealFrameP
import proofs.«424874_j42279658062121_3_alg».proof.Proof.SageProgram
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Stretch

open Cert.KernelIdeal Cert.KernelIdeal.Gen Cert.KernelIdeal.GenP Cert.SageProg

variable {F : FTy → Type} [FloatOps F]
variable (m : (ℓ : Loc nD τ sig) → Buf (Elt F) ℓ) (ρ : Dev nD → PrngReg)

/-! ## The first stretch, from the launch memory -/

set_option maxHeartbeats 2000000 in
theorem s0_v1 (c : Dev nD) : W1 m ρ c (Proc.devRef .tc main_v1) = srcRow (F := F) (m ((c : Thread nD τ).loc main_arg1)) := by
  show StableHlo.after hostOps0 (W0 m ρ c) (Proc.devRef .tc main_v1) = _
  simp only [hostOps0, List.flatten_cons, List.flatten_nil, List.append_nil, List.cons_append, List.nil_append]
  after_results_simp
  rfl
set_option maxHeartbeats 2000000 in
theorem s0_v3 (c : Dev nD) : W1 m ρ c (Proc.devRef .tc main_v3) = dstRow (F := F) (m ((c : Thread nD τ).loc main_arg1)) := by
  show StableHlo.after hostOps0 (W0 m ρ c) (Proc.devRef .tc main_v3) = _
  simp only [hostOps0, List.flatten_cons, List.flatten_nil, List.append_nil, List.cons_append, List.nil_append]
  after_results_simp
  rfl
set_option maxHeartbeats 2000000 in
theorem s0_v8 (c : Dev nD) : W1 m ρ c (Proc.devRef .tc main_v8)
    = shapeCast S100000x1 (cnt (F := F) (m ((c : Thread nD τ).loc main_arg1))) shapeCasts_S100000_S100000x1 := by
  show StableHlo.after hostOps0 (W0 m ρ c) (Proc.devRef .tc main_v8) = _
  simp only [hostOps0, List.flatten_cons, List.flatten_nil, List.append_nil, List.cons_append, List.nil_append]
  after_results_simp
  rfl
set_option maxHeartbeats 2000000 in
theorem s0_v18 (c : Dev nD) : W1 m ρ c (Proc.devRef .tc main_v18) = agg6 (F := F) (m ((c : Thread nD τ).loc main_arg0)) (m ((c : Thread nD τ).loc main_arg1)) := by
  show StableHlo.after hostOps0 (W0 m ρ c) (Proc.devRef .tc main_v18) = _
  simp only [hostOps0, List.flatten_cons, List.flatten_nil, List.append_nil, List.cons_append, List.nil_append]
  after_results_simp
  rfl
set_option maxHeartbeats 2000000 in
theorem s0_v19 (c : Dev nD) : W1 m ρ c (Proc.devRef .tc main_v19) = shapeCast S1x12 (m ((c : Thread nD τ).loc main_arg3)) shapeCasts_S12_S1x12 := by
  show StableHlo.after hostOps0 (W0 m ρ c) (Proc.devRef .tc main_v19) = _
  simp only [hostOps0, List.flatten_cons, List.flatten_nil, List.append_nil, List.cons_append, List.nil_append]
  after_results_simp
  rfl
set_option maxHeartbeats 2000000 in
theorem s0_v20 (c : Dev nD) : W1 m ρ c (Proc.devRef .tc main_v20) = tr1 (F := F) (m ((c : Thread nD τ).loc main_arg2)) := by
  show StableHlo.after hostOps0 (W0 m ρ c) (Proc.devRef .tc main_v20) = _
  simp only [hostOps0, List.flatten_cons, List.flatten_nil, List.append_nil, List.cons_append, List.nil_append]
  after_results_simp
  rfl
set_option maxHeartbeats 2000000 in
theorem s0_v21 (c : Dev nD) : W1 m ρ c (Proc.devRef .tc main_v21) = tr1 (F := F) (m ((c : Thread nD τ).loc main_arg4)) := by
  show StableHlo.after hostOps0 (W0 m ρ c) (Proc.devRef .tc main_v21) = _
  simp only [hostOps0, List.flatten_cons, List.flatten_nil, List.append_nil, List.cons_append, List.nil_append]
  after_results_simp
  rfl
set_option maxHeartbeats 2000000 in
theorem s0_arg0 (c : Dev nD) : W1 m ρ c (Proc.devRef .tc main_arg0) = (m ((c : Thread nD τ).loc main_arg0)) := by
  show StableHlo.after hostOps0 (W0 m ρ c) (Proc.devRef .tc main_arg0) = _
  simp only [hostOps0, List.flatten_cons, List.flatten_nil, List.append_nil, List.cons_append, List.nil_append]
  after_results_simp

/-! ### The later layers' parameters are not touched by the first stretch -/

set_option maxHeartbeats 2000000 in
theorem s0_arg5 (c : Dev nD) : W1 m ρ c (Proc.devRef .tc main_arg5) = (m ((c : Thread nD τ).loc main_arg5)) := by
  show StableHlo.after hostOps0 (W0 m ρ c) (Proc.devRef .tc main_arg5) = _
  simp only [hostOps0, List.flatten_cons, List.flatten_nil, List.append_nil, List.cons_append, List.nil_append]
  after_results_simp
set_option maxHeartbeats 2000000 in
theorem s0_arg6 (c : Dev nD) : W1 m ρ c (Proc.devRef .tc main_arg6) = (m ((c : Thread nD τ).loc main_arg6)) := by
  show StableHlo.after hostOps0 (W0 m ρ c) (Proc.devRef .tc main_arg6) = _
  simp only [hostOps0, List.flatten_cons, List.flatten_nil, List.append_nil, List.cons_append, List.nil_append]
  after_results_simp
set_option maxHeartbeats 2000000 in
theorem s0_arg7 (c : Dev nD) : W1 m ρ c (Proc.devRef .tc main_arg7) = (m ((c : Thread nD τ).loc main_arg7)) := by
  show StableHlo.after hostOps0 (W0 m ρ c) (Proc.devRef .tc main_arg7) = _
  simp only [hostOps0, List.flatten_cons, List.flatten_nil, List.append_nil, List.cons_append, List.nil_append]
  after_results_simp
set_option maxHeartbeats 2000000 in
theorem s0_arg8 (c : Dev nD) : W1 m ρ c (Proc.devRef .tc main_arg8) = (m ((c : Thread nD τ).loc main_arg8)) := by
  show StableHlo.after hostOps0 (W0 m ρ c) (Proc.devRef .tc main_arg8) = _
  simp only [hostOps0, List.flatten_cons, List.flatten_nil, List.append_nil, List.cons_append, List.nil_append]
  after_results_simp
set_option maxHeartbeats 2000000 in
theorem s0_arg9 (c : Dev nD) : W1 m ρ c (Proc.devRef .tc main_arg9) = (m ((c : Thread nD τ).loc main_arg9)) := by
  show StableHlo.after hostOps0 (W0 m ρ c) (Proc.devRef .tc main_arg9) = _
  simp only [hostOps0, List.flatten_cons, List.flatten_nil, List.append_nil, List.cons_append, List.nil_append]
  after_results_simp
set_option maxHeartbeats 2000000 in
theorem s0_arg10 (c : Dev nD) : W1 m ρ c (Proc.devRef .tc main_arg10) = (m ((c : Thread nD τ).loc main_arg10)) := by
  show StableHlo.after hostOps0 (W0 m ρ c) (Proc.devRef .tc main_arg10) = _
  simp only [hostOps0, List.flatten_cons, List.flatten_nil, List.append_nil, List.cons_append, List.nil_append]
  after_results_simp

/-! ## The first region's exit: the region writes its output array only, so every other buffer is as the first
    stretch left it (an input window's array is read, not written) -/

theorem w2_v1 (c : Dev nD) : W2 m ρ c (Proc.devRef .tc main_v1) = srcRow (F := F) (m ((c : Thread nD τ).loc main_arg1)) :=
  (W2_of_ne m ρ c main_v1 (by decide)).trans (s0_v1 m ρ c)
theorem w2_v3 (c : Dev nD) : W2 m ρ c (Proc.devRef .tc main_v3) = dstRow (F := F) (m ((c : Thread nD τ).loc main_arg1)) :=
  (W2_of_ne m ρ c main_v3 (by decide)).trans (s0_v3 m ρ c)
/-- The count column is the region's second input window. -/
theorem w2_v8 (c : Dev nD) : W2 m ρ c (Proc.devRef .tc main_v8)
    = shapeCast S100000x1 (cnt (F := F) (m ((c : Thread nD τ).loc main_arg1))) shapeCasts_S100000_S100000x1 :=
  ((W2_arr m ρ c 1).trans (((dat0 (V1 m ρ) c).arrAt_in 1 rfl _).trans (A_eq0 (V1 m ρ) c 1))).trans (s0_v8 m ρ c)
theorem w2_arg5 (c : Dev nD) : W2 m ρ c (Proc.devRef .tc main_arg5) = (m ((c : Thread nD τ).loc main_arg5)) :=
  (W2_of_ne m ρ c main_arg5 (by decide)).trans (s0_arg5 m ρ c)
theorem w2_arg6 (c : Dev nD) : W2 m ρ c (Proc.devRef .tc main_arg6) = (m ((c : Thread nD τ).loc main_arg6)) :=
  (W2_of_ne m ρ c main_arg6 (by decide)).trans (s0_arg6 m ρ c)
theorem w2_arg7 (c : Dev nD) : W2 m ρ c (Proc.devRef .tc main_arg7) = (m ((c : Thread nD τ).loc main_arg7)) :=
  (W2_of_ne m ρ c main_arg7 (by decide)).trans (s0_arg7 m ρ c)
theorem w2_arg8 (c : Dev nD) : W2 m ρ c (Proc.devRef .tc main_arg8) = (m ((c : Thread nD τ).loc main_arg8)) :=
  (W2_of_ne m ρ c main_arg8 (by decide)).trans (s0_arg8 m ρ c)
theorem w2_arg9 (c : Dev nD) : W2 m ρ c (Proc.devRef .tc main_arg9) = (m ((c : Thread nD τ).loc main_arg9)) :=
  (W2_of_ne m ρ c main_arg9 (by decide)).trans (s0_arg9 m ρ c)
theorem w2_arg10 (c : Dev nD) : W2 m ρ c (Proc.devRef .tc main_arg10) = (m ((c : Thread nD τ).loc main_arg10)) :=
  (W2_of_ne m ρ c main_arg10 (by decide)).trans (s0_arg10 m ρ c)

/-! ## The second stretch, from the first region's exit -/

set_option maxHeartbeats 2000000 in
theorem s1_v32 (c : Dev nD) : W3 m ρ c (Proc.devRef .tc main_v32)
    = agg12 (F := F) (W2 m ρ c (Proc.devRef .tc main_v22)) (m ((c : Thread nD τ).loc main_arg1)) := by
  show StableHlo.after hostOps1 (W2 m ρ c) (Proc.devRef .tc main_v32) = _
  simp only [hostOps1, List.flatten_cons, List.flatten_nil, List.append_nil, List.cons_append, List.nil_append]
  after_results_simp
  rw [w2_v1 m ρ c, w2_v3 m ρ c]
  rfl
set_option maxHeartbeats 2000000 in
theorem s1_v33 (c : Dev nD) : W3 m ρ c (Proc.devRef .tc main_v33) = shapeCast S1x24 (m ((c : Thread nD τ).loc main_arg6)) shapeCasts_S24_S1x24 := by
  show StableHlo.after hostOps1 (W2 m ρ c) (Proc.devRef .tc main_v33) = _
  simp only [hostOps1, List.flatten_cons, List.flatten_nil, List.append_nil, List.cons_append, List.nil_append]
  after_results_simp
  rw [w2_arg6 m ρ c]
  rfl
set_option maxHeartbeats 2000000 in
theorem s1_v34 (c : Dev nD) : W3 m ρ c (Proc.devRef .tc main_v34) = tr2 (F := F) (m ((c : Thread nD τ).loc main_arg5)) := by
  show StableHlo.after hostOps1 (W2 m ρ c) (Proc.devRef .tc main_v34) = _
  simp only [hostOps1, List.flatten_cons, List.flatten_nil, List.append_nil, List.cons_append, List.nil_append]
  after_results_simp
  rw [w2_arg5 m ρ c]
  rfl
set_option maxHeartbeats 2000000 in
theorem s1_v35 (c : Dev nD) : W3 m ρ c (Proc.devRef .tc main_v35) = tr2 (F := F) (m ((c : Thread nD τ).loc main_arg7)) := by
  show StableHlo.after hostOps1 (W2 m ρ c) (Proc.devRef .tc main_v35) = _
  simp only [hostOps1, List.flatten_cons, List.flatten_nil, List.append_nil, List.cons_append, List.nil_append]
  after_results_simp
  rw [w2_arg7 m ρ c]
  rfl
set_option maxHeartbeats 2000000 in
theorem s1_v8 (c : Dev nD) : W3 m ρ c (Proc.devRef .tc main_v8)
    = shapeCast S100000x1 (cnt (F := F) (m ((c : Thread nD τ).loc main_arg1))) shapeCasts_S100000_S100000x1 := by
  show StableHlo.after hostOps1 (W2 m ρ c) (Proc.devRef .tc main_v8) = _
  simp only [hostOps1, List.flatten_cons, List.flatten_nil, List.append_nil, List.cons_append, List.nil_append]
  after_results_simp
  exact w2_v8 m ρ c
set_option maxHeartbeats 2000000 in
theorem s1_v22 (c : Dev nD) : W3 m ρ c (Proc.devRef .tc main_v22) = W2 m ρ c (Proc.devRef .tc main_v22) := by
  show StableHlo.after hostOps1 (W2 m ρ c) (Proc.devRef .tc main_v22) = _
  simp only [hostOps1, List.flatten_cons, List.flatten_nil, List.append_nil, List.cons_append, List.nil_append]
  after_results_simp

/-! ### What the second stretch does not write -/

set_option maxHeartbeats 2000000 in
theorem h1_v1 (c : Dev nD) : W3 m ρ c (Proc.devRef .tc main_v1) = W2 m ρ c (Proc.devRef .tc main_v1) := by
  show StableHlo.after hostOps1 (W2 m ρ c) (Proc.devRef .tc main_v1) = _
  simp only [hostOps1, List.flatten_cons, List.flatten_nil, List.append_nil, List.cons_append, List.nil_append]
  after_results_simp
set_option maxHeartbeats 2000000 in
theorem h1_v3 (c : Dev nD) : W3 m ρ c (Proc.devRef .tc main_v3) = W2 m ρ c (Proc.devRef .tc main_v3) := by
  show StableHlo.after hostOps1 (W2 m ρ c) (Proc.devRef .tc main_v3) = _
  simp only [hostOps1, List.flatten_cons, List.flatten_nil, List.append_nil, List.cons_append, List.nil_append]
  after_results_simp
set_option maxHeartbeats 2000000 in
theorem h1_arg8 (c : Dev nD) : W3 m ρ c (Proc.devRef .tc main_arg8) = W2 m ρ c (Proc.devRef .tc main_arg8) := by
  show StableHlo.after hostOps1 (W2 m ρ c) (Proc.devRef .tc main_arg8) = _
  simp only [hostOps1, List.flatten_cons, List.flatten_nil, List.append_nil, List.cons_append, List.nil_append]
  after_results_simp
set_option maxHeartbeats 2000000 in
theorem h1_arg9 (c : Dev nD) : W3 m ρ c (Proc.devRef .tc main_arg9) = W2 m ρ c (Proc.devRef .tc main_arg9) := by
  show StableHlo.after hostOps1 (W2 m ρ c) (Proc.devRef .tc main_arg9) = _
  simp only [hostOps1, List.flatten_cons, List.flatten_nil, List.append_nil, List.cons_append, List.nil_append]
  after_results_simp
set_option maxHeartbeats 2000000 in
theorem h1_arg10 (c : Dev nD) : W3 m ρ c (Proc.devRef .tc main_arg10) = W2 m ρ c (Proc.devRef .tc main_arg10) := by
  show StableHlo.after hostOps1 (W2 m ρ c) (Proc.devRef .tc main_arg10) = _
  simp only [hostOps1, List.flatten_cons, List.flatten_nil, List.append_nil, List.cons_append, List.nil_append]
  after_results_simp

/-! ## The second region's exit: again only the region's output array changes -/

theorem w4_v1 (c : Dev nD) : W4 m ρ c (Proc.devRef .tc main_v1) = srcRow (F := F) (m ((c : Thread nD τ).loc main_arg1)) :=
  (W4_of_ne m ρ c main_v1 (by decide)).trans ((h1_v1 m ρ c).trans (w2_v1 m ρ c))
theorem w4_v3 (c : Dev nD) : W4 m ρ c (Proc.devRef .tc main_v3) = dstRow (F := F) (m ((c : Thread nD τ).loc main_arg1)) :=
  (W4_of_ne m ρ c main_v3 (by decide)).trans ((h1_v3 m ρ c).trans (w2_v3 m ρ c))
/-- The count column is the region's second input window. -/
theorem w4_v8 (c : Dev nD) : W4 m ρ c (Proc.devRef .tc main_v8)
    = shapeCast S100000x1 (cnt (F := F) (m ((c : Thread nD τ).loc main_arg1))) shapeCasts_S100000_S100000x1 :=
  ((W4_arr m ρ c 1).trans (((dat1 (V3 m ρ) c).arrAt_in 1 rfl _).trans (A_eq1 (V3 m ρ) c 1))).trans (s1_v8 m ρ c)
theorem w4_arg8 (c : Dev nD) : W4 m ρ c (Proc.devRef .tc main_arg8) = (m ((c : Thread nD τ).loc main_arg8)) :=
  (W4_of_ne m ρ c main_arg8 (by decide)).trans ((h1_arg8 m ρ c).trans (w2_arg8 m ρ c))
theorem w4_arg9 (c : Dev nD) : W4 m ρ c (Proc.devRef .tc main_arg9) = (m ((c : Thread nD τ).loc main_arg9)) :=
  (W4_of_ne m ρ c main_arg9 (by decide)).trans ((h1_arg9 m ρ c).trans (w2_arg9 m ρ c))
theorem w4_arg10 (c : Dev nD) : W4 m ρ c (Proc.devRef .tc main_arg10) = (m ((c : Thread nD τ).loc main_arg10)) :=
  (W4_of_ne m ρ c main_arg10 (by decide)).trans ((h1_arg10 m ρ c).trans (w2_arg10 m ρ c))

/-! ## The third stretch, from the second region's exit -/

set_option maxHeartbeats 2000000 in
theorem s2_v46 (c : Dev nD) : W5 m ρ c (Proc.devRef .tc main_v46)
    = agg24 (F := F) (W4 m ρ c (Proc.devRef .tc main_v36)) (m ((c : Thread nD τ).loc main_arg1)) := by
  show StableHlo.after hostOps2 (W4 m ρ c) (Proc.devRef .tc main_v46) = _
  simp only [hostOps2, List.flatten_cons, List.flatten_nil, List.append_nil, List.cons_append, List.nil_append]
  after_results_simp
  rw [w4_v1 m ρ c, w4_v3 m ρ c]
  rfl
set_option maxHeartbeats 2000000 in
theorem s2_v47 (c : Dev nD) : W5 m ρ c (Proc.devRef .tc main_v47) = shapeCast S1x6 (m ((c : Thread nD τ).loc main_arg9)) shapeCasts_S6_S1x6 := by
  show StableHlo.after hostOps2 (W4 m ρ c) (Proc.devRef .tc main_v47) = _
  simp only [hostOps2, List.flatten_cons, List.flatten_nil, List.append_nil, List.cons_append, List.nil_append]
  after_results_simp
  rw [w4_arg9 m ρ c]
  rfl
set_option maxHeartbeats 2000000 in
theorem s2_v48 (c : Dev nD) : W5 m ρ c (Proc.devRef .tc main_v48) = tr3 (F := F) (m ((c : Thread nD τ).loc main_arg8)) := by
  show StableHlo.after hostOps2 (W4 m ρ c) (Proc.devRef .tc main_v48) = _
  simp only [hostOps2, List.flatten_cons, List.flatten_nil, List.append_nil, List.cons_append, List.nil_append]
  after_results_simp
  rw [w4_arg8 m ρ c]
  rfl
set_option maxHeartbeats 2000000 in
theorem s2_v49 (c : Dev nD) : W5 m ρ c (Proc.devRef .tc main_v49) = tr3 (F := F) (m ((c : Thread nD τ).loc main_arg10)) := by
  show StableHlo.after hostOps2 (W4 m ρ c) (Proc.devRef .tc main_v49) = _
  simp only [hostOps2, List.flatten_cons, List.flatten_nil, List.append_nil, List.cons_append, List.nil_append]
  after_results_simp
  rw [w4_arg10 m ρ c]
  rfl
set_option maxHeartbeats 2000000 in
theorem s2_v8 (c : Dev nD) : W5 m ρ c (Proc.devRef .tc main_v8)
    = shapeCast S100000x1 (cnt (F := F) (m ((c : Thread nD τ).loc main_arg1))) shapeCasts_S100000_S100000x1 := by
  show StableHlo.after hostOps2 (W4 m ρ c) (Proc.devRef .tc main_v8) = _
  simp only [hostOps2, List.flatten_cons, List.flatten_nil, List.append_nil, List.cons_append, List.nil_append]
  after_results_simp
  exact w4_v8 m ρ c
set_option maxHeartbeats 2000000 in
theorem s2_v36 (c : Dev nD) : W5 m ρ c (Proc.devRef .tc main_v36) = W4 m ρ c (Proc.devRef .tc main_v36) := by
  show StableHlo.after hostOps2 (W4 m ρ c) (Proc.devRef .tc main_v36) = _
  simp only [hostOps2, List.flatten_cons, List.flatten_nil, List.append_nil, List.cons_append, List.nil_append]
  after_results_simp

end Cert.KernelIdeal.Stretch

end
-- ==== Proof.KerChain.lean ====
/-
  The blocked program's result as the node encoding of its arguments.

  Each region's output array is its layer of the arrays it finds (the three region modules); what it finds is what
  the host stretch before it leaves (the stretch module): the neighbour sums of the previous layer's output, the edge
  counts as a column, the previous layer's output itself, the two weights transposed and the bias as a row. A column
  recast from a vector reads the vector back, and so does a row, which turns a region's layer into the layer of the
  specification; chaining the three regions gives the specification's three layers in sequence.
-/
import proofs.«424874_j42279658062121_3_alg».proof.Proof.KernelIdealRunP
import proofs.«424874_j42279658062121_3_alg».proof.Proof.Region0
import proofs.«424874_j42279658062121_3_alg».proof.Proof.Region1
import proofs.«424874_j42279658062121_3_alg».proof.Proof.Region2
import proofs.«424874_j42279658062121_3_alg».proof.Proof.KerStretch
import proofs.«424874_j42279658062121_3_alg».proof.Proof.SageProgram
import proofs.«424874_j42279658062121_3_alg».proof.Proof.SageSpec
import Idealize.ShloMosaic.Lib.ValueLayout

set_option maxRecDepth 16384

noncomputable section

open Idealize.ShloMosaic Idealize.ShloMosaic.TcCoe Idealize.SL.Sem Idealize.ShloMosaic.ValueIdx

namespace Cert.KernelIdeal.Chain

open Cert.KernelIdeal Cert.KernelIdeal.Gen Cert.KernelIdeal.GenP Cert.SageProg Cert.Sage Cert.KernelIdeal.Stretch

/-- A vector recast as a column, read down the column, is the vector. -/
theorem column_eq {α : Type} {a : ℕ} (x : (⟨1, ![a]⟩ : Shape).Idx → α) (h : (⟨1, ![a]⟩ : Shape).ShapeCasts ⟨2, ![a, 1]⟩) :
    (fun i : (⟨1, ![a]⟩ : Shape).Idx => shapeCast ⟨2, ![a, 1]⟩ x h (ix2 (n0 := a) (i 0) (0 : Fin 1))) = x := by
  funext i
  exact (shapeCast_a_a1_apply x h (i 0) (0 : Fin 1)).trans (congrArg x (eq_ix1 i).symm)

/-- A vector recast as a row, read along the row, is the vector. -/
theorem row_eq {α : Type} {a : ℕ} (x : (⟨1, ![a]⟩ : Shape).Idx → α) (h : (⟨1, ![a]⟩ : Shape).ShapeCasts ⟨2, ![1, a]⟩) :
    (fun i : (⟨1, ![a]⟩ : Shape).Idx => shapeCast ⟨2, ![1, a]⟩ x h (ix2 (n1 := a) (0 : Fin 1) (i 0))) = x := by
  funext i
  exact (shapeCast_a_1a_apply x h (0 : Fin 1) (i 0)).trans (congrArg x (eq_ix1 i).symm)

/-- The first region's layer, its counts a recast vector and its bias a recast vector, is the specification's layer
    clamped at zero. -/
theorem layer0_eq (agg : FVec Ideal S100000x6 .f32) (cn : FVec Ideal S100000 .f32) (x : FVec Ideal S100000x6 .f32)
    (wl : FVec Ideal S6x12 .f32) (b : FVec Ideal S12 .f32) (wr : FVec Ideal S6x12 .f32) :
    Reg0.layer agg (shapeCast S100000x1 cn shapeCasts_S100000_S100000x1) x wl (shapeCast S1x12 b shapeCasts_S12_S1x12) wr
      = relu (lin agg cn x wl b wr) := by
  unfold Reg0.layer
  rw [column_eq, row_eq]

theorem layer1_eq (agg : FVec Ideal S100000x12 .f32) (cn : FVec Ideal S100000 .f32) (x : FVec Ideal S100000x12 .f32)
    (wl : FVec Ideal S12x24 .f32) (b : FVec Ideal S24 .f32) (wr : FVec Ideal S12x24 .f32) :
    Reg1.layer agg (shapeCast S100000x1 cn shapeCasts_S100000_S100000x1) x wl (shapeCast S1x24 b shapeCasts_S24_S1x24) wr
      = relu (lin agg cn x wl b wr) := by
  unfold Reg1.layer
  rw [column_eq, row_eq]

theorem layer2_eq (agg : FVec Ideal S100000x24 .f32) (cn : FVec Ideal S100000 .f32) (x : FVec Ideal S100000x24 .f32)
    (wl : FVec Ideal S24x6 .f32) (b : FVec Ideal S6 .f32) (wr : FVec Ideal S24x6 .f32) :
    Reg2.layer agg (shapeCast S100000x1 cn shapeCasts_S100000_S100000x1) x wl (shapeCast S1x6 b shapeCasts_S6_S1x6) wr
      = lin agg cn x wl b wr := by
  unfold Reg2.layer
  rw [column_eq, row_eq]

variable (m : (ℓ : Loc nD τ sig) → Buf (Elt Ideal) ℓ) (ρ : Dev nD → PrngReg)

/-- After the first region its result array holds the first hidden layer of the arguments. -/
theorem w2_v22 (c : Dev nD) : (W2 m ρ c (Proc.devRef .tc main_v22)) = hidden1 (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 6).trans ((Reg0.final (V1 m ρ) c).trans ?_)
  show Reg0.layer (W1 m ρ c (Proc.devRef .tc main_v18)) (W1 m ρ c (Proc.devRef .tc main_v8)) (W1 m ρ c (Proc.devRef .tc main_arg0)) (W1 m ρ c (Proc.devRef .tc main_v20)) (W1 m ρ c (Proc.devRef .tc main_v19)) (W1 m ρ c (Proc.devRef .tc main_v21)) = _
  rw [s0_v18, s0_v8, s0_arg0, s0_v20, s0_v19, s0_v21, layer0_eq]
  rfl

/-- After the second region its result array holds the second hidden layer. -/
theorem w4_v36 (c : Dev nD) : (W4 m ρ c (Proc.devRef .tc main_v36))
    = hidden2 (hidden1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7)) := by
  refine (W4_arr m ρ c 6).trans ((Reg1.final (V3 m ρ) c).trans ?_)
  show Reg1.layer (W3 m ρ c (Proc.devRef .tc main_v32)) (W3 m ρ c (Proc.devRef .tc main_v8)) (W3 m ρ c (Proc.devRef .tc main_v22)) (W3 m ρ c (Proc.devRef .tc main_v34)) (W3 m ρ c (Proc.devRef .tc main_v33)) (W3 m ρ c (Proc.devRef .tc main_v35)) = _
  rw [s1_v32, s1_v8, s1_v22, s1_v34, s1_v33, s1_v35, w2_v22, layer1_eq]
  rfl

/-- After the third region the program's result array holds the node encoding. -/
theorem w6_v50 (c : Dev nD) : (W6 m ρ c (Proc.devRef .tc main_v50))
    = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 6).trans ((Reg2.final (V5 m ρ) c).trans ?_)
  show Reg2.layer (W5 m ρ c (Proc.devRef .tc main_v46)) (W5 m ρ c (Proc.devRef .tc main_v8)) (W5 m ρ c (Proc.devRef .tc main_v36)) (W5 m ρ c (Proc.devRef .tc main_v48)) (W5 m ρ c (Proc.devRef .tc main_v47)) (W5 m ρ c (Proc.devRef .tc main_v49)) = _
  rw [s2_v46, s2_v8, s2_v36, s2_v48, s2_v47, s2_v49, w4_v36, layer2_eq]
  rfl

/-- THE RUN, READ: every weakly fair execution of the blocked program ends with the result array at the node encoding
    of the launch contents of its arguments, the arguments unchanged. -/
theorem run_value : θ_run defs (onTc (τ := τ) (main (F := Ideal))) ⟨m, fun _ => 0, ρ⟩ (fun r => ∀ c : Dev nD,
      r.2.mem ((c.tc : Thread nD τ).loc main_v50)
        = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (w6_v50 m ρ c), (h c).2⟩) (run_main m ρ)

end Cert.KernelIdeal.Chain

end
-- ==== Proof.RefValue.lean ====
/-
  The reference program's result, as one function of its eleven argument arrays, is the three-layer value
  `Cert.SageProg.value`.

  The reference computes three mean-aggregation layers over a fixed edge list. Each layer recomputes, from the edge
  list alone, the source index of every edge (a negative node number shifted up by the node count), the destination
  index, and the number of edges ending at each node; it gathers the source rows of the current features, adds them
  into the destination rows of a zero array, divides row `r` of that sum by `max (cnt r) 1`, multiplies by the first
  weight matrix transposed, adds the bias along rows, and adds the current features times the second weight matrix
  transposed. The first two layers are then clamped at zero from below.

  Two kinds of facts are proved. The integer index chains, the edge counts, the gather-and-add aggregates and the
  weight transposes are the same compositions of the same operations as the ones `Cert.SageProg` names, for every
  float instance: they agree by unfolding names, and gather and scatter-add are never opened. On the extended reals,
  each layer's result is read at an index `(r, c)`: the two products are sums over the contracted axis, the
  broadcasts of the count column and of the bias row read the entry of row `r` and of column `c`, and what is left
  is, term for term, `Cert.Sage.lin` at `(r, c)` (clamped, for the first two). Chaining the three layers gives
  `value`.
-/
import proofs.«424874_j42279658062121_3_alg».proof.Proof.Gen.ReferenceIdeal.Read
import proofs.«424874_j42279658062121_3_alg».proof.Proof.SageProgram
import Idealize.ShloMosaic.Lib.ValueIdx
import Idealize.ShloMosaic.Lib.ValueLayout
import Idealize.ShloMosaic.PureOps.Ideal.Laws

noncomputable section

namespace Cert.RefSage

open Cert.ReferenceIdeal Cert.ReferenceIdeal.Read Cert.SageProg Cert.Sage Idealize.ShloMosaic Idealize.ShloMosaic.ValueIdx

variable {F : FTy → Type} [FloatOps F]

/-! ## The index chains, the counts, the aggregates and the transposes, for every float instance -/

/-- Layer 1's source index of every edge is `src`. -/
theorem src_eq1 (x1 : (⟨S2x3200000, .i32⟩ : BufTy).Contents (Elt F)) :
    val_main_v9 (F := F) x1 = src (F := F) x1 := rfl

/-- Layer 2's source index of every edge is `src`. -/
theorem src_eq2 (x1 : (⟨S2x3200000, .i32⟩ : BufTy).Contents (Elt F)) :
    val_main_v37 (F := F) x1 = src (F := F) x1 := rfl

/-- Layer 3's source index of every edge is `src`. -/
theorem src_eq3 (x1 : (⟨S2x3200000, .i32⟩ : BufTy).Contents (Elt F)) :
    val_main_v65 (F := F) x1 = src (F := F) x1 := rfl

/-- The destination index of every edge is `dst`. -/
theorem dst_eq12 (x1 : (⟨S2x3200000, .i32⟩ : BufTy).Contents (Elt F)) :
    val_main_v12 (F := F) x1 = dst (F := F) x1 := rfl

/-- The destination index of every edge is `dst`. -/
theorem dst_eq16 (x1 : (⟨S2x3200000, .i32⟩ : BufTy).Contents (Elt F)) :
    val_main_v16 (F := F) x1 = dst (F := F) x1 := rfl

/-- The destination index of every edge is `dst`. -/
theorem dst_eq40 (x1 : (⟨S2x3200000, .i32⟩ : BufTy).Contents (Elt F)) :
    val_main_v40 (F := F) x1 = dst (F := F) x1 := rfl

/-- The destination index of every edge is `dst`. -/
theorem dst_eq44 (x1 : (⟨S2x3200000, .i32⟩ : BufTy).Contents (Elt F)) :
    val_main_v44 (F := F) x1 = dst (F := F) x1 := rfl

/-- The destination index of every edge is `dst`. -/
theorem dst_eq68 (x1 : (⟨S2x3200000, .i32⟩ : BufTy).Contents (Elt F)) :
    val_main_v68 (F := F) x1 = dst (F := F) x1 := rfl

/-- The destination index of every edge is `dst`. -/
theorem dst_eq72 (x1 : (⟨S2x3200000, .i32⟩ : BufTy).Contents (Elt F)) :
    val_main_v72 (F := F) x1 = dst (F := F) x1 := rfl

/-- Layer 1's count of the edges ending at each node is `cnt`. -/
theorem cnt_eq1 (x1 : (⟨S2x3200000, .i32⟩ : BufTy).Contents (Elt F)) :
    val_main_v17 (F := F) x1 = cnt (F := F) x1 := by
  unfold val_main_v17 cnt
  rw [dst_eq16]
  rfl

/-- Layer 2's count of the edges ending at each node is `cnt`. -/
theorem cnt_eq2 (x1 : (⟨S2x3200000, .i32⟩ : BufTy).Contents (Elt F)) :
    val_main_v45 (F := F) x1 = cnt (F := F) x1 := by
  unfold val_main_v45 cnt
  rw [dst_eq44]
  rfl

/-- Layer 3's count of the edges ending at each node is `cnt`. -/
theorem cnt_eq3 (x1 : (⟨S2x3200000, .i32⟩ : BufTy).Contents (Elt F)) :
    val_main_v73 (F := F) x1 = cnt (F := F) x1 := by
  unfold val_main_v73 cnt
  rw [dst_eq72]
  rfl

/-- Layer 1 aggregates the input features. -/
theorem agg_eq1 (x0 : (⟨S100000x6, .f32⟩ : BufTy).Contents (Elt F))
    (x1 : (⟨S2x3200000, .i32⟩ : BufTy).Contents (Elt F)) :
    val_main_v13 (F := F) x0 x1 = agg6 (F := F) x0 x1 := by
  unfold val_main_v13 val_main_v10 agg6
  rw [dst_eq12, src_eq1]
  rfl

/-- Layer 2 aggregates layer 1's result. -/
theorem agg_eq2 (x0 : (⟨S100000x6, .f32⟩ : BufTy).Contents (Elt F))
    (x1 : (⟨S2x3200000, .i32⟩ : BufTy).Contents (Elt F))
    (x2 : (⟨S12x6, .f32⟩ : BufTy).Contents (Elt F))
    (x3 : (⟨S12, .f32⟩ : BufTy).Contents (Elt F))
    (x4 : (⟨S12x6, .f32⟩ : BufTy).Contents (Elt F)) :
    val_main_v41 (F := F) x0 x1 x2 x3 x4 = agg12 (F := F) (val_main_v31 (F := F) x0 x1 x2 x3 x4) x1 := by
  unfold val_main_v41 val_main_v38 agg12
  rw [dst_eq40, src_eq2]
  rfl

/-- Layer 3 aggregates layer 2's result. -/
theorem agg_eq3 (x0 : (⟨S100000x6, .f32⟩ : BufTy).Contents (Elt F))
    (x1 : (⟨S2x3200000, .i32⟩ : BufTy).Contents (Elt F))
    (x2 : (⟨S12x6, .f32⟩ : BufTy).Contents (Elt F))
    (x3 : (⟨S12, .f32⟩ : BufTy).Contents (Elt F))
    (x4 : (⟨S12x6, .f32⟩ : BufTy).Contents (Elt F))
    (x5 : (⟨S24x12, .f32⟩ : BufTy).Contents (Elt F))
    (x6 : (⟨S24, .f32⟩ : BufTy).Contents (Elt F))
    (x7 : (⟨S24x12, .f32⟩ : BufTy).Contents (Elt F)) :
    val_main_v69 (F := F) x0 x1 x2 x3 x4 x5 x6 x7
      = agg24 (F := F) (val_main_v59 (F := F) x0 x1 x2 x3 x4 x5 x6 x7) x1 := by
  unfold val_main_v69 val_main_v66 agg24
  rw [dst_eq68, src_eq3]
  rfl

/-- A weight matrix transposed. -/
theorem tr_eq23 (x2 : (⟨S12x6, .f32⟩ : BufTy).Contents (Elt F)) :
    val_main_v23 (F := F) x2 = tr1 (F := F) x2 := rfl

/-- A weight matrix transposed. -/
theorem tr_eq28 (x4 : (⟨S12x6, .f32⟩ : BufTy).Contents (Elt F)) :
    val_main_v28 (F := F) x4 = tr1 (F := F) x4 := rfl

/-- A weight matrix transposed. -/
theorem tr_eq51 (x5 : (⟨S24x12, .f32⟩ : BufTy).Contents (Elt F)) :
    val_main_v51 (F := F) x5 = tr2 (F := F) x5 := rfl

/-- A weight matrix transposed. -/
theorem tr_eq56 (x7 : (⟨S24x12, .f32⟩ : BufTy).Contents (Elt F)) :
    val_main_v56 (F := F) x7 = tr2 (F := F) x7 := rfl

/-- A weight matrix transposed. -/
theorem tr_eq79 (x8 : (⟨S6x24, .f32⟩ : BufTy).Contents (Elt F)) :
    val_main_v79 (F := F) x8 = tr3 (F := F) x8 := rfl

/-- A weight matrix transposed. -/
theorem tr_eq84 (x10 : (⟨S6x24, .f32⟩ : BufTy).Contents (Elt F)) :
    val_main_v84 (F := F) x10 = tr3 (F := F) x10 := rfl

/-! ## The three layers on the extended reals, index by index -/

/-- Layer 1's neighbour sum divided by the clamped count, at row `r`, feature `k`: the count column broadcast along the
    row reads the count of node `r`. -/
theorem mean1 (x0 : (⟨S100000x6, .f32⟩ : BufTy).Contents (Elt Ideal))
    (x1 : (⟨S2x3200000, .i32⟩ : BufTy).Contents (Elt Ideal))
    (r : Fin 100000) (k : Fin 6) :
    val_main_v22 (F := Ideal) x0 x1 (ix2 r k)
      = Ideal.div (val_main_v13 (F := Ideal) x0 x1 (ix2 r k))
          (max (val_main_v17 (F := Ideal) x1 (ix1 r)) (Ideal.ofBits .f32 0x3F800000#32)) := by
  have hcnt : idx_main_v20 (idx_main_v21 (ix2 r k)) = ix1 r := funext fun a => by
    match a with
    | ⟨0, _⟩ => rfl
  rw [val_main_v22_apply, val_main_v21_apply, val_main_v20_apply, val_main_v19_apply, val_main_v18_apply, val_main_cst_3_apply, hcnt]
  rfl

/-- Layer 1 at row `r`, column `c`: the neighbour-mean product, the bias, the residual product, clamped at zero. -/
theorem layer1 (x0 : (⟨S100000x6, .f32⟩ : BufTy).Contents (Elt Ideal))
    (x1 : (⟨S2x3200000, .i32⟩ : BufTy).Contents (Elt Ideal))
    (x2 : (⟨S12x6, .f32⟩ : BufTy).Contents (Elt Ideal))
    (x3 : (⟨S12, .f32⟩ : BufTy).Contents (Elt Ideal))
    (x4 : (⟨S12x6, .f32⟩ : BufTy).Contents (Elt Ideal)) :
    val_main_v31 (F := Ideal) x0 x1 x2 x3 x4
      = relu (lin (val_main_v13 (F := Ideal) x0 x1) (val_main_v17 (F := Ideal) x1) x0 (val_main_v23 (F := Ideal) x2) x3
          (val_main_v28 (F := Ideal) x4)) := by
  funext j
  obtain ⟨r, c, rfl⟩ : ∃ (r : Fin 100000) (c : Fin 12), j = ix2 r c := ⟨j 0, j 1, eq_ix2 j⟩
  have hla : ∀ k : Fin 6, lidx_main_v24 (ix2 r c) k = ix2 r k := fun k => funext fun a => by
    match a with
    | ⟨0, _⟩ => rfl
    | ⟨1, _⟩ => rfl
  have hra : ∀ k : Fin 6, ridx_main_v24 (ix2 r c) k = ix2 k c := fun k => funext fun a => by
    match a with
    | ⟨0, _⟩ => rfl
    | ⟨1, _⟩ => rfl
  have hlh : ∀ k : Fin 6, lidx_main_v29 (ix2 r c) k = ix2 r k := fun k => funext fun a => by
    match a with
    | ⟨0, _⟩ => rfl
    | ⟨1, _⟩ => rfl
  have hrh : ∀ k : Fin 6, ridx_main_v29 (ix2 r c) k = ix2 k c := fun k => funext fun a => by
    match a with
    | ⟨0, _⟩ => rfl
    | ⟨1, _⟩ => rfl
  have hb : idx_main_v25 (idx_main_v26 (ix2 r c)) = ix1 c := funext fun a => by
    match a with
    | ⟨0, _⟩ => rfl
  have h1 : ∀ k : Fin 6,
      val_main_v22 (F := Ideal) x0 x1 (lidx_main_v24 (ix2 r c) k)
          * val_main_v23 (F := Ideal) x2 (ridx_main_v24 (ix2 r c) k)
        = Ideal.div (val_main_v13 (F := Ideal) x0 x1 (ix2 r k))
          (max (val_main_v17 (F := Ideal) x1 (ix1 r)) (Ideal.ofBits .f32 0x3F800000#32))
          * val_main_v23 (F := Ideal) x2 (ix2 k c) := fun k => by
    rw [hla k, hra k, mean1]
  have h2 : ∀ k : Fin 6,
      x0 (lidx_main_v29 (ix2 r c) k) * val_main_v28 (F := Ideal) x4 (ridx_main_v29 (ix2 r c) k)
        = x0 (ix2 r k) * val_main_v28 (F := Ideal) x4 (ix2 k c) := fun k => by
    rw [hlh k, hrh k]
  rw [relu_apply, lin_apply, val_main_v31_apply, val_main_v30_apply, val_main_v27_apply, val_main_v24_apply, val_main_v29_apply, val_main_v26_apply, val_main_v25_apply, val_main_call0_v0_apply, val_main_call0_cst_apply,
    Ideal.maximumf_def, Ideal.addf_def, Ideal.addf_def, Ideal.ofBits_def, hb,
    Finset.sum_congr rfl fun k _ => h1 k, Finset.sum_congr rfl fun k _ => h2 k]

/-- Layer 2's neighbour sum divided by the clamped count, at row `r`, feature `k`: the count column broadcast along the
    row reads the count of node `r`. -/
theorem mean2 (x0 : (⟨S100000x6, .f32⟩ : BufTy).Contents (Elt Ideal))
    (x1 : (⟨S2x3200000, .i32⟩ : BufTy).Contents (Elt Ideal))
    (x2 : (⟨S12x6, .f32⟩ : BufTy).Contents (Elt Ideal))
    (x3 : (⟨S12, .f32⟩ : BufTy).Contents (Elt Ideal))
    (x4 : (⟨S12x6, .f32⟩ : BufTy).Contents (Elt Ideal))
    (r : Fin 100000) (k : Fin 12) :
    val_main_v50 (F := Ideal) x0 x1 x2 x3 x4 (ix2 r k)
      = Ideal.div (val_main_v41 (F := Ideal) x0 x1 x2 x3 x4 (ix2 r k))
          (max (val_main_v45 (F := Ideal) x1 (ix1 r)) (Ideal.ofBits .f32 0x3F800000#32)) := by
  have hcnt : idx_main_v48 (idx_main_v49 (ix2 r k)) = ix1 r := funext fun a => by
    match a with
    | ⟨0, _⟩ => rfl
  rw [val_main_v50_apply, val_main_v49_apply, val_main_v48_apply, val_main_v47_apply, val_main_v46_apply, val_main_cst_9_apply, hcnt]
  rfl

/-- Layer 2 at row `r`, column `c`: the neighbour-mean product, the bias, the residual product, clamped at zero. -/
theorem layer2 (x0 : (⟨S100000x6, .f32⟩ : BufTy).Contents (Elt Ideal))
    (x1 : (⟨S2x3200000, .i32⟩ : BufTy).Contents (Elt Ideal))
    (x2 : (⟨S12x6, .f32⟩ : BufTy).Contents (Elt Ideal))
    (x3 : (⟨S12, .f32⟩ : BufTy).Contents (Elt Ideal))
    (x4 : (⟨S12x6, .f32⟩ : BufTy).Contents (Elt Ideal))
    (x5 : (⟨S24x12, .f32⟩ : BufTy).Contents (Elt Ideal))
    (x6 : (⟨S24, .f32⟩ : BufTy).Contents (Elt Ideal))
    (x7 : (⟨S24x12, .f32⟩ : BufTy).Contents (Elt Ideal)) :
    val_main_v59 (F := Ideal) x0 x1 x2 x3 x4 x5 x6 x7
      = relu (lin (val_main_v41 (F := Ideal) x0 x1 x2 x3 x4) (val_main_v45 (F := Ideal) x1)
          (val_main_v31 (F := Ideal) x0 x1 x2 x3 x4) (val_main_v51 (F := Ideal) x5) x6 (val_main_v56 (F := Ideal) x7)) := by
  funext j
  obtain ⟨r, c, rfl⟩ : ∃ (r : Fin 100000) (c : Fin 24), j = ix2 r c := ⟨j 0, j 1, eq_ix2 j⟩
  have hla : ∀ k : Fin 12, lidx_main_v52 (ix2 r c) k = ix2 r k := fun k => funext fun a => by
    match a with
    | ⟨0, _⟩ => rfl
    | ⟨1, _⟩ => rfl
  have hra : ∀ k : Fin 12, ridx_main_v52 (ix2 r c) k = ix2 k c := fun k => funext fun a => by
    match a with
    | ⟨0, _⟩ => rfl
    | ⟨1, _⟩ => rfl
  have hlh : ∀ k : Fin 12, lidx_main_v57 (ix2 r c) k = ix2 r k := fun k => funext fun a => by
    match a with
    | ⟨0, _⟩ => rfl
    | ⟨1, _⟩ => rfl
  have hrh : ∀ k : Fin 12, ridx_main_v57 (ix2 r c) k = ix2 k c := fun k => funext fun a => by
    match a with
    | ⟨0, _⟩ => rfl
    | ⟨1, _⟩ => rfl
  have hb : idx_main_v53 (idx_main_v54 (ix2 r c)) = ix1 c := funext fun a => by
    match a with
    | ⟨0, _⟩ => rfl
  have h1 : ∀ k : Fin 12,
      val_main_v50 (F := Ideal) x0 x1 x2 x3 x4 (lidx_main_v52 (ix2 r c) k)
          * val_main_v51 (F := Ideal) x5 (ridx_main_v52 (ix2 r c) k)
        = Ideal.div (val_main_v41 (F := Ideal) x0 x1 x2 x3 x4 (ix2 r k))
          (max (val_main_v45 (F := Ideal) x1 (ix1 r)) (Ideal.ofBits .f32 0x3F800000#32))
          * val_main_v51 (F := Ideal) x5 (ix2 k c) := fun k => by
    rw [hla k, hra k, mean2]
  have h2 : ∀ k : Fin 12,
      val_main_v31 (F := Ideal) x0 x1 x2 x3 x4 (lidx_main_v57 (ix2 r c) k) * val_main_v56 (F := Ideal) x7 (ridx_main_v57 (ix2 r c) k)
        = val_main_v31 (F := Ideal) x0 x1 x2 x3 x4 (ix2 r k) * val_main_v56 (F := Ideal) x7 (ix2 k c) := fun k => by
    rw [hlh k, hrh k]
  rw [relu_apply, lin_apply, val_main_v59_apply, val_main_v58_apply, val_main_v55_apply, val_main_v52_apply, val_main_v57_apply, val_main_v54_apply, val_main_v53_apply, val_main_call1_v0_apply, val_main_call1_cst_apply,
    Ideal.maximumf_def, Ideal.addf_def, Ideal.addf_def, Ideal.ofBits_def, hb,
    Finset.sum_congr rfl fun k _ => h1 k, Finset.sum_congr rfl fun k _ => h2 k]

/-- Layer 3's neighbour sum divided by the clamped count, at row `r`, feature `k`: the count column broadcast along the
    row reads the count of node `r`. -/
theorem mean3 (x0 : (⟨S100000x6, .f32⟩ : BufTy).Contents (Elt Ideal))
    (x1 : (⟨S2x3200000, .i32⟩ : BufTy).Contents (Elt Ideal))
    (x2 : (⟨S12x6, .f32⟩ : BufTy).Contents (Elt Ideal))
    (x3 : (⟨S12, .f32⟩ : BufTy).Contents (Elt Ideal))
    (x4 : (⟨S12x6, .f32⟩ : BufTy).Contents (Elt Ideal))
    (x5 : (⟨S24x12, .f32⟩ : BufTy).Contents (Elt Ideal))
    (x6 : (⟨S24, .f32⟩ : BufTy).Contents (Elt Ideal))
    (x7 : (⟨S24x12, .f32⟩ : BufTy).Contents (Elt Ideal))
    (r : Fin 100000) (k : Fin 24) :
    val_main_v78 (F := Ideal) x0 x1 x2 x3 x4 x5 x6 x7 (ix2 r k)
      = Ideal.div (val_main_v69 (F := Ideal) x0 x1 x2 x3 x4 x5 x6 x7 (ix2 r k))
          (max (val_main_v73 (F := Ideal) x1 (ix1 r)) (Ideal.ofBits .f32 0x3F800000#32)) := by
  have hcnt : idx_main_v76 (idx_main_v77 (ix2 r k)) = ix1 r := funext fun a => by
    match a with
    | ⟨0, _⟩ => rfl
  rw [val_main_v78_apply, val_main_v77_apply, val_main_v76_apply, val_main_v75_apply, val_main_v74_apply, val_main_cst_15_apply, hcnt]
  rfl

/-- Layer 3 at row `r`, column `c`: the neighbour-mean product, the bias, the residual product. -/
theorem layer3 (x0 : (⟨S100000x6, .f32⟩ : BufTy).Contents (Elt Ideal))
    (x1 : (⟨S2x3200000, .i32⟩ : BufTy).Contents (Elt Ideal))
    (x2 : (⟨S12x6, .f32⟩ : BufTy).Contents (Elt Ideal))
    (x3 : (⟨S12, .f32⟩ : BufTy).Contents (Elt Ideal))
    (x4 : (⟨S12x6, .f32⟩ : BufTy).Contents (Elt Ideal))
    (x5 : (⟨S24x12, .f32⟩ : BufTy).Contents (Elt Ideal))
    (x6 : (⟨S24, .f32⟩ : BufTy).Contents (Elt Ideal))
    (x7 : (⟨S24x12, .f32⟩ : BufTy).Contents (Elt Ideal))
    (x8 : (⟨S6x24, .f32⟩ : BufTy).Contents (Elt Ideal))
    (x9 : (⟨S6, .f32⟩ : BufTy).Contents (Elt Ideal))
    (x10 : (⟨S6x24, .f32⟩ : BufTy).Contents (Elt Ideal)) :
    val_main_v86 (F := Ideal) x0 x1 x2 x3 x4 x5 x6 x7 x8 x9 x10
      = lin (val_main_v69 (F := Ideal) x0 x1 x2 x3 x4 x5 x6 x7) (val_main_v73 (F := Ideal) x1)
          (val_main_v59 (F := Ideal) x0 x1 x2 x3 x4 x5 x6 x7) (val_main_v79 (F := Ideal) x8) x9 (val_main_v84 (F := Ideal) x10) := by
  funext j
  obtain ⟨r, c, rfl⟩ : ∃ (r : Fin 100000) (c : Fin 6), j = ix2 r c := ⟨j 0, j 1, eq_ix2 j⟩
  have hla : ∀ k : Fin 24, lidx_main_v80 (ix2 r c) k = ix2 r k := fun k => funext fun a => by
    match a with
    | ⟨0, _⟩ => rfl
    | ⟨1, _⟩ => rfl
  have hra : ∀ k : Fin 24, ridx_main_v80 (ix2 r c) k = ix2 k c := fun k => funext fun a => by
    match a with
    | ⟨0, _⟩ => rfl
    | ⟨1, _⟩ => rfl
  have hlh : ∀ k : Fin 24, lidx_main_v85 (ix2 r c) k = ix2 r k := fun k => funext fun a => by
    match a with
    | ⟨0, _⟩ => rfl
    | ⟨1, _⟩ => rfl
  have hrh : ∀ k : Fin 24, ridx_main_v85 (ix2 r c) k = ix2 k c := fun k => funext fun a => by
    match a with
    | ⟨0, _⟩ => rfl
    | ⟨1, _⟩ => rfl
  have hb : idx_main_v81 (idx_main_v82 (ix2 r c)) = ix1 c := funext fun a => by
    match a with
    | ⟨0, _⟩ => rfl
  have h1 : ∀ k : Fin 24,
      val_main_v78 (F := Ideal) x0 x1 x2 x3 x4 x5 x6 x7 (lidx_main_v80 (ix2 r c) k)
          * val_main_v79 (F := Ideal) x8 (ridx_main_v80 (ix2 r c) k)
        = Ideal.div (val_main_v69 (F := Ideal) x0 x1 x2 x3 x4 x5 x6 x7 (ix2 r k))
          (max (val_main_v73 (F := Ideal) x1 (ix1 r)) (Ideal.ofBits .f32 0x3F800000#32))
          * val_main_v79 (F := Ideal) x8 (ix2 k c) := fun k => by
    rw [hla k, hra k, mean3]
  have h2 : ∀ k : Fin 24,
      val_main_v59 (F := Ideal) x0 x1 x2 x3 x4 x5 x6 x7 (lidx_main_v85 (ix2 r c) k) * val_main_v84 (F := Ideal) x10 (ridx_main_v85 (ix2 r c) k)
        = val_main_v59 (F := Ideal) x0 x1 x2 x3 x4 x5 x6 x7 (ix2 r k) * val_main_v84 (F := Ideal) x10 (ix2 k c) := fun k => by
    rw [hlh k, hrh k]
  rw [lin_apply, val_main_v86_apply, val_main_v83_apply, val_main_v80_apply, val_main_v85_apply, val_main_v82_apply, val_main_v81_apply,
    Ideal.addf_def, Ideal.addf_def, hb,
    Finset.sum_congr rfl fun k _ => h1 k, Finset.sum_congr rfl fun k _ => h2 k]

/-! ## The whole reference -/

/-- The reference's first hidden layer is `hidden1` of its arguments. -/
theorem hidden1_eq (x0 : (⟨S100000x6, .f32⟩ : BufTy).Contents (Elt Ideal))
    (x1 : (⟨S2x3200000, .i32⟩ : BufTy).Contents (Elt Ideal))
    (x2 : (⟨S12x6, .f32⟩ : BufTy).Contents (Elt Ideal))
    (x3 : (⟨S12, .f32⟩ : BufTy).Contents (Elt Ideal))
    (x4 : (⟨S12x6, .f32⟩ : BufTy).Contents (Elt Ideal)) :
    val_main_v31 (F := Ideal) x0 x1 x2 x3 x4 = hidden1 x0 x1 x2 x3 x4 := by
  rw [layer1, agg_eq1, cnt_eq1, tr_eq23, tr_eq28]
  rfl

/-- The reference's second hidden layer is `hidden2` of the first and its arguments. -/
theorem hidden2_eq (x0 : (⟨S100000x6, .f32⟩ : BufTy).Contents (Elt Ideal))
    (x1 : (⟨S2x3200000, .i32⟩ : BufTy).Contents (Elt Ideal))
    (x2 : (⟨S12x6, .f32⟩ : BufTy).Contents (Elt Ideal))
    (x3 : (⟨S12, .f32⟩ : BufTy).Contents (Elt Ideal))
    (x4 : (⟨S12x6, .f32⟩ : BufTy).Contents (Elt Ideal))
    (x5 : (⟨S24x12, .f32⟩ : BufTy).Contents (Elt Ideal))
    (x6 : (⟨S24, .f32⟩ : BufTy).Contents (Elt Ideal))
    (x7 : (⟨S24x12, .f32⟩ : BufTy).Contents (Elt Ideal)) :
    val_main_v59 (F := Ideal) x0 x1 x2 x3 x4 x5 x6 x7 = hidden2 (hidden1 x0 x1 x2 x3 x4) x1 x5 x6 x7 := by
  rw [layer2, agg_eq2, cnt_eq2, hidden1_eq, tr_eq51, tr_eq56]
  rfl

/-- The reference's result is the three-layer value of its arguments. -/
theorem ref_value (x0 : (⟨S100000x6, .f32⟩ : BufTy).Contents (Elt Ideal))
    (x1 : (⟨S2x3200000, .i32⟩ : BufTy).Contents (Elt Ideal))
    (x2 : (⟨S12x6, .f32⟩ : BufTy).Contents (Elt Ideal))
    (x3 : (⟨S12, .f32⟩ : BufTy).Contents (Elt Ideal))
    (x4 : (⟨S12x6, .f32⟩ : BufTy).Contents (Elt Ideal))
    (x5 : (⟨S24x12, .f32⟩ : BufTy).Contents (Elt Ideal))
    (x6 : (⟨S24, .f32⟩ : BufTy).Contents (Elt Ideal))
    (x7 : (⟨S24x12, .f32⟩ : BufTy).Contents (Elt Ideal))
    (x8 : (⟨S6x24, .f32⟩ : BufTy).Contents (Elt Ideal))
    (x9 : (⟨S6, .f32⟩ : BufTy).Contents (Elt Ideal))
    (x10 : (⟨S6x24, .f32⟩ : BufTy).Contents (Elt Ideal)) :
    val_main_v86 (F := Ideal) x0 x1 x2 x3 x4 x5 x6 x7 x8 x9 x10 = value x0 x1 x2 x3 x4 x5 x6 x7 x8 x9 x10 := by
  rw [layer3, agg_eq3, cnt_eq3, hidden2_eq, tr_eq79, tr_eq84]
  rfl

end Cert.RefSage

end
-- ==== Proof.lean ====
/-
  A three-layer mean-aggregation graph network over 100000 nodes and 3200000 edges, computed two ways.

  Both programs compute, per layer, for node features `h`: the sum over every node's in-neighbours of their feature
  rows (a gather along the edges' sources followed by a scatter-add at their destinations), the number of
  in-neighbours per node, and then, for node `r` and output feature `c`,

      (∑ₖ (agg r k / max (cnt r) 1) · Wl c k) + b c + ∑ₖ h r k · Wr c k,

  clamped at zero from below after the first two layers. The reference does the division, the two products and the
  additions on whole arrays. The blocked program leaves gather, scatter-add and the count to the same host
  operations, computes the count once, and does the rest in a region per layer that walks the nodes in 50 blocks of
  2000 rows, rounding the product operands to a narrower format first — on the extended reals a change of format is
  the identity, a product of blocks into a zero accumulator is the sum over the contracted coordinate, and a row of the
  result depends only on the same row of the row-blocked inputs, so the blocks assemble to the same whole-array
  function. No law of arithmetic beyond that is used: the sums are associated the same way on both sides, and the
  precondition (finite inputs) is never opened.

  The frames of the two kernel programs are the generated frame certificates; the reference's frame is its
  generated run with the result dropped. The
  idealization rewrote no operation, so there is nothing to preserve. For the value claim both runs end at
  `Cert.SageProg.value` of the arguments: the blocked program by its regions' layers chained through the host
  stretches, the reference by its operations read one at a time.
-/
import proofs.«424874_j42279658062121_3_alg».proof.Defs
import proofs.«424874_j42279658062121_3_alg».proof.Proof.Gen.Kernel
import proofs.«424874_j42279658062121_3_alg».proof.Proof.KernelFrameP
import proofs.«424874_j42279658062121_3_alg».proof.Proof.Gen.KernelIdeal
import proofs.«424874_j42279658062121_3_alg».proof.Proof.KernelIdealFrameP
import proofs.«424874_j42279658062121_3_alg».proof.Proof.Gen.ReferenceIdeal
import proofs.«424874_j42279658062121_3_alg».proof.Proof.Gen.ReferenceIdeal.Run
import proofs.«424874_j42279658062121_3_alg».proof.Proof.Gen.ReferenceIdeal.Read
import proofs.«424874_j42279658062121_3_alg».proof.Proof.Gen.Pre_finite_inputs
import proofs.«424874_j42279658062121_3_alg».proof.Proof.KerChain
import proofs.«424874_j42279658062121_3_alg».proof.Proof.RefValue
import Idealize.ShloMosaic.Adequacy
import Idealize.ShloMosaic.Init

noncomputable section

namespace Cert.Proof

open Idealize.ShloMosaic Idealize.SL.Sem

/-- The blocked program at the word level runs, and leaves its arguments as launched. -/
theorem frame_kernel : Cert.frame_Kernel := fun m ρ _ => Cert.Kernel.GenP.frame m ρ

/-- So does its reading on the extended reals. -/
theorem frame_kernelIdeal : Cert.frame_KernelIdeal := fun m ρ _ => Cert.KernelIdeal.GenP.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the eleven arguments both programs end with the node encoding of those arguments
    in their result arrays. -/
theorem algebraic : Cert.algebraic_KernelIdeal_ReferenceIdeal := by
  intro m ρ m' ρ' _ hagree
  refine ⟨fun c => Cert.SageProg.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Chain.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v86_eq, Cert.RefSage.ref_value, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
